-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x96x128 : Shape := ⟨3, ![2048, 96, 128]⟩
abbrev S2048x96 : Shape := ⟨2, ![2048, 96]⟩
abbrev S128x64 : Shape := ⟨2, ![128, 64]⟩
abbrev S64 : Shape := ⟨1, ![64]⟩
abbrev S64x1 : Shape := ⟨2, ![64, 1]⟩
abbrev S1 : Shape := ⟨1, ![1]⟩
abbrev S100x1 : Shape := ⟨2, ![100, 1]⟩
abbrev S_ : Shape := ⟨0, ![]⟩

class Facts : Prop where
  bcast_S_S2048x96x128 : S_.BroadcastsInDim S2048x96x128 (![] : Fin 0 → Fin S2048x96x128.rank)
  reducesTo_S2048x96x128_S_d0_1_2 : S2048x96x128.ReducesTo [0, 1, 2] S_
  h_S_ : 0 < S_.numel
  bcast_S_S2048x96 : S_.BroadcastsInDim S2048x96 (![] : Fin 0 → Fin S2048x96.rank)
  reducesTo_S2048x96_S_d0_1 : S2048x96.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_
  bcast_S_S100x1 : S_.BroadcastsInDim S100x1 (![] : Fin 0 → Fin S100x1.rank)
  reducesTo_S100x1_S_d0_1 : S100x1.ReducesTo [0, 1] S_

variable [Facts]

def fn_part2 {F : FTy → Type} [FloatOps F] (main_arg1 : IVec S2048x96 32) (main_arg8 : FVec F S1 .f32) (main_arg9 : FVec F S1 .f32) (main_v33 : IVec S_ 1) : IVec S_ 1 :=
  let main_v34 : FVec F S1 .f32 := Host.absf main_arg8
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  let main_v39 : FVec F S1 .f32 := Host.absf main_arg9
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  let main_c_16 : IVec S_ 32 := constantI S_ 32 0#32
  let main_v44 : IVec S2048x96 32 := broadcastInDim S2048x96 ![] bcast_S_S2048x96 main_c_16
  let main_v45 : IVec S2048x96 1 := cmpi .sge main_arg1 main_v44
  let main_c_17 : IVec S_ 1 := constantI S_ 1 1#1
  let main_v46 : IVec S_ 1 := (fun x v => Host.reduce IntOp.andi x v reducesTo_S2048x96_S_d0_1 h_S_) main_v45 main_c_17
  let main_v47 : IVec S_ 1 := andi main_v43 main_v46
  main_v47

def fn_part1 {F : FTy → Type} [FloatOps F] (main_arg1 : IVec S2048x96 32) (main_arg5 : FVec F S64x1 .f32) (main_arg6 : FVec F S1 .f32) (main_arg7 : FVec F S100x1 .f32) (main_arg8 : FVec F S1 .f32) (main_arg9 : FVec F S1 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x1 .f32 := Host.absf main_arg5
  let main_cst_6 : FVec F S_ .f32 := constant S_ .f32 0x7F800000#32
  let main_v20 : FVec F S64x1 .f32 := broadcastInDim S64x1 ![] bcast_S_S64x1 main_cst_6
  let main_v21 : IVec S64x1 1 := cmpf .olt main_v19 main_v20
  let main_c_7 : IVec S_ 1 := constantI S_ 1 1#1
  let main_v22 : IVec S_ 1 := (fun x v => Host.reduce IntOp.andi x v reducesTo_S64x1_S_d0_1 h_S_) main_v21 main_c_7
  let main_v23 : IVec S_ 1 := andi main_v18 main_v22
  let main_v24 : FVec F S1 .f32 := Host.absf main_arg6
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  let main_v29 : FVec F S100x1 .f32 := Host.absf main_arg7
  let main_cst_10 : FVec F S_ .f32 := constant S_ .f32 0x7F800000#32
  let main_v30 : FVec F S100x1 .f32 := broadcastInDim S100x1 ![] bcast_S_S100x1 main_cst_10
  let main_v31 : IVec S100x1 1 := cmpf .olt main_v29 main_v30
  let main_c_11 : IVec S_ 1 := constantI S_ 1 1#1
  let main_v32 : IVec S_ 1 := (fun x v => Host.reduce IntOp.andi x v reducesTo_S100x1_S_d0_1 h_S_) main_v31 main_c_11
  let main_v33 : IVec S_ 1 := andi main_v28 main_v32
  fn_part2 (F := F) main_arg1 main_arg8 main_arg9 main_v33

def fn {F : FTy → Type} [FloatOps F] (main_arg0 : FVec F S2048x96x128 .f32) (main_arg1 : IVec S2048x96 32) (main_arg2 : FVec F S2048x96 .f32) (main_arg3 : FVec F S128x64 .f32) (main_arg4 : FVec F S64 .f32) (main_arg5 : FVec F S64x1 .f32) (main_arg6 : FVec F S1 .f32) (main_arg7 : FVec F S100x1 .f32) (main_arg8 : FVec F S1 .f32) (main_arg9 : FVec F S1 .f32) : IVec S_ 1 :=
  let main_v0 : FVec F S2048x96x128 .f32 := Host.absf main_arg0
  let main_cst : FVec F S_ .f32 := constant S_ .f32 0x7F800000#32
  let main_v1 : FVec F S2048x96x128 .f32 := broadcastInDim S2048x96x128 ![] bcast_S_S2048x96x128 main_cst
  let main_v2 : IVec S2048x96x128 1 := cmpf .olt main_v0 main_v1
  let main_c : IVec S_ 1 := constantI S_ 1 1#1
  let main_v3 : IVec S_ 1 := (fun x v => Host.reduce IntOp.andi x v reducesTo_S2048x96x128_S_d0_1_2 h_S_) main_v2 main_c
  let main_v4 : FVec F S2048x96 .f32 := Host.absf main_arg2
  let main_cst_0 : FVec F S_ .f32 := constant S_ .f32 0x7F800000#32
  let main_v5 : FVec F S2048x96 .f32 := broadcastInDim S2048x96 ![] bcast_S_S2048x96 main_cst_0
  let main_v6 : IVec S2048x96 1 := cmpf .olt main_v4 main_v5
  let main_c_1 : IVec S_ 1 := constantI S_ 1 1#1
  let main_v7 : IVec S_ 1 := (fun x v => Host.reduce IntOp.andi x v reducesTo_S2048x96_S_d0_1 h_S_) main_v6 main_c_1
  let main_v8 : IVec S_ 1 := andi main_v3 main_v7
  let main_v9 : FVec F S128x64 .f32 := Host.absf main_arg3
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg1 main_arg5 main_arg6 main_arg7 main_arg8 main_arg9 main_v13 main_v16
-- ==== Kernel.lean ====
abbrev S2048x96x128 : Shape := ⟨3, ![2048, 96, 128]⟩
abbrev S2048x96 : Shape := ⟨2, ![2048, 96]⟩
abbrev S128x64 : Shape := ⟨2, ![128, 64]⟩
abbrev S64 : Shape := ⟨1, ![64]⟩
abbrev S64x1 : Shape := ⟨2, ![64, 1]⟩
abbrev S1 : Shape := ⟨1, ![1]⟩
abbrev S100x1 : Shape := ⟨2, ![100, 1]⟩
abbrev S_ : Shape := ⟨0, ![]⟩
abbrev S2048x96x1 : Shape := ⟨3, ![2048, 96, 1]⟩
abbrev S1x64 : Shape := ⟨2, ![1, 64]⟩
abbrev S1x1 : Shape := ⟨2, ![1, 1]⟩
abbrev S16x1x128 : Shape := ⟨3, ![16, 1, 128]⟩
abbrev S128x96x128 : Shape := ⟨3, ![128, 96, 128]⟩
abbrev S128x96 : Shape := ⟨2, ![128, 96]⟩
abbrev S1x1x128 : Shape := ⟨3, ![1, 1, 128]⟩
abbrev S12288x128 : Shape := ⟨2, ![12288, 128]⟩
abbrev S12288x64 : Shape := ⟨2, ![12288, 64]⟩
abbrev S128x96x64 : Shape := ⟨3, ![128, 96, 64]⟩
abbrev S1x1x64 : Shape := ⟨3, ![1, 1, 64]⟩
abbrev S128 : Shape := ⟨1, ![128]⟩
abbrev S2048 : Shape := ⟨1, ![2048]⟩
abbrev S2048x1 : Shape := ⟨2, ![2048, 1]⟩

abbrev nBuf : Space → Nat
  | .hbm => 41
  | .vmem => 12
  | .smem => 0
  | _ => 0

abbrev bufTy : (tb : Table) → Fin (tcTables nBuf tb) → BufTy
  | .hbm, ⟨0, _⟩ => ⟨S2048x96x128, .f32⟩
  | .hbm, ⟨1, _⟩ => ⟨S2048x96, .i32⟩
  | .hbm, ⟨2, _⟩ => ⟨S2048x96, .f32⟩
  | .hbm, ⟨3, _⟩ => ⟨S128x64, .f32⟩
  | .hbm, ⟨4, _⟩ => ⟨S64, .f32⟩
  | .hbm, ⟨5, _⟩ => ⟨S64x1, .f32⟩
  | .hbm, ⟨6, _⟩ => ⟨S1, .f32⟩
  | .hbm, ⟨7, _⟩ => ⟨S100x1, .f32⟩
  | .hbm, ⟨8, _⟩ => ⟨S1, .f32⟩
  | .hbm, ⟨9, _⟩ => ⟨S1, .f32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S2048x96, .i32⟩
  | .hbm, ⟨14, _⟩ => ⟨S2048x96, .i32⟩
  | .hbm, ⟨15, _⟩ => ⟨S_, .i32⟩
  | .hbm, ⟨16, _⟩ => ⟨S2048x96, .i32⟩
  | .hbm, ⟨17, _⟩ => ⟨S2048x96, .i32⟩
  | .hbm, ⟨18, _⟩ => ⟨S_, .i32⟩
  | .hbm, ⟨19, _⟩ => ⟨S2048x96, .i32⟩
  | .hbm, ⟨20, _⟩ => ⟨S2048x96, .i1⟩
  | .hbm, ⟨21, _⟩ => ⟨S_, .i32⟩
  | .hbm, ⟨22, _⟩ => ⟨S2048x96, .i32⟩
  | .hbm, ⟨23, _⟩ => ⟨S2048x96, .i32⟩
  | .hbm, ⟨24, _⟩ => ⟨S2048x96, .i32⟩
  | .hbm, ⟨25, _⟩ => ⟨S2048x96x1, .i32⟩
  | .hbm, ⟨26, _⟩ => ⟨S2048x96x1, .f32⟩
  | .hbm, ⟨27, _⟩ => ⟨S2048x96, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S2048x96, .f32⟩
  | .hbm, ⟨34, _⟩ => ⟨S2048x96, .f32⟩
  | .hbm, ⟨35, _⟩ => ⟨S1x64, .f32⟩
  | .hbm, ⟨36, _⟩ => ⟨S1x64, .f32⟩
  | .hbm, ⟨37, _⟩ => ⟨S1x1, .f32⟩
  | .hbm, ⟨38, _⟩ => ⟨S16x1x128, .f32⟩
  | .hbm, ⟨39, _⟩ => ⟨S2048, .f32⟩
  | .hbm, ⟨40, _⟩ => ⟨S2048x1, .f32⟩
  | .local _ .vmem, ⟨0, _⟩ => ⟨S128x96x128, .f32⟩
  | .local _ .vmem, ⟨1, _⟩ => ⟨S128x96x128, .f32⟩
  | .local _ .vmem, ⟨2, _⟩ => ⟨S128x96, .f32⟩
  | .local _ .vmem, ⟨3, _⟩ => ⟨S128x96, .f32⟩
  | .local _ .vmem, ⟨4, _⟩ => ⟨S128x96, .f32⟩
  | .local _ .vmem, ⟨5, _⟩ => ⟨S128x96, .f32⟩
  | .local _ .vmem, ⟨6, _⟩ => ⟨S128x64, .f32⟩
  | .local _ .vmem, ⟨7, _⟩ => ⟨S1x64, .f32⟩
  | .local _ .vmem, ⟨8, _⟩ => ⟨S1x64, .f32⟩
  | .local _ .vmem, ⟨9, _⟩ => ⟨S1x1, .f32⟩
  | .local _ .vmem, ⟨10, _⟩ => ⟨S1x1x128, .f32⟩
  | .local _ .vmem, ⟨11, _⟩ => ⟨S1x1x128, .f32⟩
  | _, _ => ⟨S2048x96x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_c_0 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_v0 : Ref sig .tc := ⟨.hbm, 17, rfl⟩
abbrev main_c_1 : Ref sig .tc := ⟨.hbm, 18, rfl⟩
abbrev main_v1 : Ref sig .tc := ⟨.hbm, 19, rfl⟩
abbrev main_v2 : Ref sig .tc := ⟨.hbm, 20, rfl⟩
abbrev main_c_2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S128x96x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x96 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x96 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x1x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  bcast_S_S2048x96 : S_.BroadcastsInDim S2048x96 (![] : Fin 0 → Fin S2048x96.rank)
  bcast_S2048x96_S2048x96x1_0_1 : S2048x96.BroadcastsInDim S2048x96x1 (![0, 1] : Fin 2 → Fin S2048x96x1.rank)
  shapeCasts_S2048x96x1_S2048x96 : S2048x96x1.ShapeCasts S2048x96
  shapeCasts_S1_S_ : S1.ShapeCasts S_
  shapeCasts_S64_S1x64 : S64.ShapeCasts S1x64
  shapeCasts_S64x1_S1x64 : S64x1.ShapeCasts S1x64
  shapeCasts_S1_S1x1 : S1.ShapeCasts S1x1
  inb_S128x96x128_S128x96x128_0_0_0 : ∀ a, (![0, 0, 0] : Fin 3 → Nat) a + S128x96x128.size a ≤ S128x96x128.size a
  h_S128x96x128 : 0 < S128x96x128.numel
  bitsLt_bf16_f32 : FTy.bits .bf16 < FTy.bits .f32
  shapeCasts_S128x96x128_S12288x128 : S128x96x128.ShapeCasts S12288x128
  inb_S128x64_S128x64_0_0 : ∀ a, (![0, 0] : Fin 2 → Nat) a + S128x64.size a ≤ S128x64.size a
  h_S128x64 : 0 < S128x64.numel
  shapeCasts_S12288x64_S128x96x64 : S12288x64.ShapeCasts S128x96x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  shapeCasts_S1x64_S1x1x64 : S1x64.ShapeCasts S1x1x64
  broadcasts_S1x1x64_S128x96x64 : S1x1x64.Broadcasts S128x96x64
  reduces_S128x96x64_S128x96 : S128x96x64.Reduces [2] S128x96
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S128x96 : S1x1.Broadcasts S128x96
  inb_S128x96_S128x96_0_0 : ∀ a, (![0, 0] : Fin 2 → Nat) a + S128x96.size a ≤ S128x96.size a
  h_S128x96 : 0 < S128x96.numel
  shapeCasts_S128x96_S128x96 : S128x96.ShapeCasts S128x96
  reduces_S128x96_S128 : S128x96.Reduces [1] S128
  shapeCasts_S128_S1x1x128 : S128.ShapeCasts S1x1x128
  inb_S1x1x128_S1x1x128_0_0_0 : ∀ a, (![0, 0, 0] : Fin 3 → Nat) a + S1x1x128.size a ≤ S1x1x128.size a
  h_S1x1x128 : 0 < S1x1x128.numel
  shapeCasts_S16x1x128_S2048 : S16x1x128.ShapeCasts S2048
  shapeCasts_S2048_S2048x1 : S2048.ShapeCasts S2048x1
  gather_S100x1_S2048x96x1_S2048x96x1_2_0_n_n_0_2_11_wf : GatherDims.WF S100x1 S2048x96x1 S2048x96x1 [2] [0] [] [0] [] 2 ![1, 1]
  dot_S12288x128_S128x64_S12288x64_1_0_0_1_n_n_wf : DotDims.WF S12288x128 S128x64 S12288x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x96x128.size a ≤ S2048x96x128.size a
  hwx0_0 : ∀ i : grid0.Coords, EltTy.bits .f32 = 32 ∨ (Rect.block (s := S2048x96x128) S128x96x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x96.size a ≤ S2048x96.size a
  hwx0_1 : ∀ i : grid0.Coords, EltTy.bits .f32 = 32 ∨ (Rect.block (s := S2048x96) S128x96.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x96.size a ≤ S2048x96.size a
  hwx0_2 : ∀ i : grid0.Coords, EltTy.bits .f32 = 32 ∨ (Rect.block (s := S2048x96) S128x96.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x64.size a ≤ S128x64.size a
  hwx0_3 : ∀ i : grid0.Coords, EltTy.bits .f32 = 32 ∨ (Rect.block (s := S128x64) S128x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1.size a ≤ S1x1.size a
  hwx0_6 : ∀ i : grid0.Coords, EltTy.bits .f32 = 32 ∨ (Rect.block (s := S1x1) S1x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x1x128.size a ≤ S16x1x128.size a
  hwx0_7 : ∀ i : grid0.Coords, EltTy.bits .f32 = 32 ∨ (Rect.block (s := S16x1x128) S1x1x128.size (cc0_transform_7 i) (hinb0_7 i)).WholeWords (EltTy.packing .f32)

variable [Facts₀]

def gather_S100x1_S2048x96x1_S2048x96x1_2_0_n_n_0_2_11 : GatherDims S100x1 S2048x96x1 S2048x96x1 where
  offsetDims := [2]
  collapsedSliceDims := [0]
  operandBatchingDims := []
  startIndicesBatchingDims := []
  startIndexMap := [0]
  indexVectorDim := 2
  sliceSizes := ![1, 1]
  wf := gather_S100x1_S2048x96x1_S2048x96x1_2_0_n_n_0_2_11_wf
def dot_S12288x128_S128x64_S12288x64_1_0_0_1_n_n : DotDims S12288x128 S128x64 S12288x64 where
  lhsContracting := [1]
  rhsContracting := [0]
  lhsNonContracting := [0]
  rhsNonContracting := [1]
  lhsBatch := []
  rhsBatch := []
  wf := dot_S12288x128_S128x64_S12288x64_1_0_0_1_n_n_wf

abbrev win0_0 : Pipeline.Window sig grid0 :=
  Pipeline.Window.ofSpec (Memref.whole main_arg0) S128x96x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S128x96.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x96.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v16) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v17) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v18) S1x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v19) S1x1x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S2048x96x128 : Shape := ⟨3, ![2048, 96, 128]⟩
abbrev S2048x96 : Shape := ⟨2, ![2048, 96]⟩
abbrev S128x64 : Shape := ⟨2, ![128, 64]⟩
abbrev S64 : Shape := ⟨1, ![64]⟩
abbrev S64x1 : Shape := ⟨2, ![64, 1]⟩
abbrev S1 : Shape := ⟨1, ![1]⟩
abbrev S100x1 : Shape := ⟨2, ![100, 1]⟩
abbrev S2048x96x64 : Shape := ⟨3, ![2048, 96, 64]⟩
abbrev S1x1x64 : Shape := ⟨3, ![1, 1, 64]⟩
abbrev S_ : Shape := ⟨0, ![]⟩
abbrev S2048x96x1 : Shape := ⟨3, ![2048, 96, 1]⟩
abbrev S1x1x1 : Shape := ⟨3, ![1, 1, 1]⟩
abbrev S2048x1 : Shape := ⟨2, ![2048, 1]⟩

abbrev nBuf : Space → Nat
  | .hbm => 55
  | .vmem => 0
  | .smem => 0
  | _ => 0

abbrev bufTy : (tb : Table) → Fin (tcTables nBuf tb) → BufTy
  | .hbm, ⟨0, _⟩ => ⟨S2048x96x128, .f32⟩
  | .hbm, ⟨1, _⟩ => ⟨S2048x96, .i32⟩
  | .hbm, ⟨2, _⟩ => ⟨S2048x96, .f32⟩
  | .hbm, ⟨3, _⟩ => ⟨S128x64, .f32⟩
  | .hbm, ⟨4, _⟩ => ⟨S64, .f32⟩
  | .hbm, ⟨5, _⟩ => ⟨S64x1, .f32⟩
  | .hbm, ⟨6, _⟩ => ⟨S1, .f32⟩
  | .hbm, ⟨7, _⟩ => ⟨S100x1, .f32⟩
  | .hbm, ⟨8, _⟩ => ⟨S1, .f32⟩
  | .hbm, ⟨9, _⟩ => ⟨S1, .f32⟩
  | .hbm, ⟨10, _⟩ => ⟨S2048x96x64, .f32⟩
  | .hbm, ⟨11, _⟩ => ⟨S1x1x64, .f32⟩
  | .hbm, ⟨12, _⟩ => ⟨S2048x96x64, .f32⟩
  | .hbm, ⟨13, _⟩ => ⟨S2048x96x64, .f32⟩
  | .hbm, ⟨14, _⟩ => ⟨S_, .f32⟩
  | .hbm, ⟨15, _⟩ => ⟨S2048x96x64, .f32⟩
  | .hbm, ⟨16, _⟩ => ⟨S2048x96x64, .f32⟩
  | .hbm, ⟨17, _⟩ => ⟨S2048x96x64, .f32⟩
  | .hbm, ⟨18, _⟩ => ⟨S2048x96x64, .f32⟩
  | .hbm, ⟨19, _⟩ => ⟨S2048x96x64, .i1⟩
  | .hbm, ⟨20, _⟩ => ⟨S2048x96x64, .f32⟩
  | .hbm, ⟨21, _⟩ => ⟨S2048x96x64, .f32⟩
  | .hbm, ⟨22, _⟩ => ⟨S2048x96x64, .f32⟩
  | .hbm, ⟨23, _⟩ => ⟨S2048x96x64, .f32⟩
  | .hbm, ⟨24, _⟩ => ⟨S2048x96x64, .f32⟩
  | .hbm, ⟨25, _⟩ => ⟨S2048x96x64, .f32⟩
  | .hbm, ⟨26, _⟩ => ⟨S2048x96x64, .f32⟩
  | .hbm, ⟨27, _⟩ => ⟨S2048x96x64, .f32⟩
  | .hbm, ⟨28, _⟩ => ⟨S_, .f32⟩
  | .hbm, ⟨29, _⟩ => ⟨S2048x96x64, .f32⟩
  | .hbm, ⟨30, _⟩ => ⟨S2048x96x64, .f32⟩
  | .hbm, ⟨31, _⟩ => ⟨S2048x96x1, .f32⟩
  | .hbm, ⟨32, _⟩ => ⟨S1x1x1, .f32⟩
  | .hbm, ⟨33, _⟩ => ⟨S2048x96x1, .f32⟩
  | .hbm, ⟨34, _⟩ => ⟨S2048x96x1, .f32⟩
  | .hbm, ⟨35, _⟩ => ⟨S1x1x1, .f32⟩
  | .hbm, ⟨36, _⟩ => ⟨S2048x96x1, .f32⟩
  | .hbm, ⟨37, _⟩ => ⟨S2048x96x1, .f32⟩
  | .hbm, ⟨38, _⟩ => ⟨S1x1x1, .f32⟩
  | .hbm, ⟨39, _⟩ => ⟨S2048x96x1, .f32⟩
  | .hbm, ⟨40, _⟩ => ⟨S2048x96x1, .f32⟩
  | .hbm, ⟨41, _⟩ => ⟨S_, .i32⟩
  | .hbm, ⟨42, _⟩ => ⟨S2048x96, .i32⟩
  | .hbm, ⟨43, _⟩ => ⟨S2048x96, .i1⟩
  | .hbm, ⟨44, _⟩ => ⟨S_, .i32⟩
  | .hbm, ⟨45, _⟩ => ⟨S2048x96, .i32⟩
  | .hbm, ⟨46, _⟩ => ⟨S2048x96, .i32⟩
  | .hbm, ⟨47, _⟩ => ⟨S2048x96, .i32⟩
  | .hbm, ⟨48, _⟩ => ⟨S2048x96x1, .i32⟩
  | .hbm, ⟨49, _⟩ => ⟨S2048x96x1, .f32⟩
  | .hbm, ⟨50, _⟩ => ⟨S2048x96x1, .f32⟩
  | .hbm, ⟨51, _⟩ => ⟨S2048x96x1, .f32⟩
  | .hbm, ⟨52, _⟩ => ⟨S2048x96x1, .f32⟩
  | .hbm, ⟨53, _⟩ => ⟨S_, .f32⟩
  | .hbm, ⟨54, _⟩ => ⟨S2048x1, .f32⟩
  | _, _ => ⟨S2048x96x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_call0_cst : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_v4 : Ref sig .tc := ⟨.hbm, 27, rfl⟩
abbrev main_cst : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_c : Ref sig .tc := ⟨.hbm, 41, rfl⟩
abbrev main_v17 : Ref sig .tc := ⟨.hbm, 42, rfl⟩
abbrev main_v18 : Ref sig .tc := ⟨.hbm, 43, rfl⟩
abbrev main_c_0 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_cst_1 : Ref sig .tc := ⟨.hbm, 53, rfl⟩
abbrev main_v27 : Ref sig .tc := ⟨.hbm, 54, rfl⟩

abbrev nD : Nat := 1
abbrev τ : Topo := Topo.v7x

variable {F : FTy → Type} [FloatOps F]

class Facts₀ : Prop where
  bcast_S64_S1x1x64_2 : S64.BroadcastsInDim S1x1x64 (![2] : Fin 1 → Fin S1x1x64.rank)
  bcast_S1x1x64_S2048x96x64_0_1_2 : S1x1x64.BroadcastsInDim S2048x96x64 (![0, 1, 2] : Fin 3 → Fin S2048x96x64.rank)
  bcast_S_S2048x96x64 : S_.BroadcastsInDim S2048x96x64 (![] : Fin 0 → Fin S2048x96x64.rank)
  bcast_S1_S1x1x1_2 : S1.BroadcastsInDim S1x1x1 (![2] : Fin 1 → Fin S1x1x1.rank)
  bcast_S1x1x1_S2048x96x1_0_1_2 : S1x1x1.BroadcastsInDim S2048x96x1 (![0, 1, 2] : Fin 3 → Fin S2048x96x1.rank)
  bcast_S_S2048x96 : S_.BroadcastsInDim S2048x96 (![] : Fin 0 → Fin S2048x96.rank)
  bcast_S2048x96_S2048x96x1_0_1 : S2048x96.BroadcastsInDim S2048x96x1 (![0, 1] : Fin 2 → Fin S2048x96x1.rank)
  reducesTo_S2048x96x1_S2048x1_d1 : S2048x96x1.ReducesTo [1] S2048x1
  h_S_ : 0 < S_.numel
  dot_S2048x96x128_S128x64_S2048x96x64_2_0_01_1_n_n_wf : DotDims.WF S2048x96x128 S128x64 S2048x96x64 [2] [0] [0, 1] [1] [] []
  dot_S2048x96x64_S64x1_S2048x96x1_2_0_01_1_n_n_wf : DotDims.WF S2048x96x64 S64x1 S2048x96x1 [2] [0] [0, 1] [1] [] []
  gather_S100x1_S2048x96x1_S2048x96x1_2_0_n_n_0_2_11_wf : GatherDims.WF S100x1 S2048x96x1 S2048x96x1 [2] [0] [] [0] [] 2 ![1, 1]

variable [Facts₀]

def dot_S2048x96x128_S128x64_S2048x96x64_2_0_01_1_n_n : DotDims S2048x96x128 S128x64 S2048x96x64 where
  lhsContracting := [2]
  rhsContracting := [0]
  lhsNonContracting := [0, 1]
  rhsNonContracting := [1]
  lhsBatch := []
  rhsBatch := []
  wf := dot_S2048x96x128_S128x64_S2048x96x64_2_0_01_1_n_n_wf
def dot_S2048x96x64_S64x1_S2048x96x1_2_0_01_1_n_n : DotDims S2048x96x64 S64x1 S2048x96x1 where
  lhsContracting := [2]
  rhsContracting := [0]
  lhsNonContracting := [0, 1]
  rhsNonContracting := [1]
  lhsBatch := []
  rhsBatch := []
  wf := dot_S2048x96x64_S64x1_S2048x96x1_2_0_01_1_n_n_wf
def gather_S100x1_S2048x96x1_S2048x96x1_2_0_n_n_0_2_11 : GatherDims S100x1 S2048x96x1 S2048x96x1 where
  offsetDims := [2]
  collapsedSliceDims := [0]
  operandBatchingDims := []
  startIndicesBatchingDims := []
  startIndexMap := [0]
  indexVectorDim := 2
  sliceSizes := ![1, 1]
  wf := gather_S100x1_S2048x96x1_S2048x96x1_2_0_n_n_0_2_11_wf

class Facts : Prop extends Facts₀ where

variable [Facts]
-- ==== Proof.PreFacts.lean ====
/-
  The precondition `finite_inputs`, read back as plain facts about the ten input arrays.

  The printed function computes one boolean: the conjunction of ten all-index tests. Nine of them say, of a float array x,
  that |x| < +∞ at every index (|x| is max x (−x), and the pattern 0x7F800000 denotes +∞); the tenth says, of the
  32-bit integer array, that every word is ≥ 0 read signed. The claim's hypothesis says the boolean is 1. A
  conjunction of bits is 1 exactly when each bit is; a reduction by `and` over all axes that came out 1 met a 1 at
  every index; and an extended real x with max x (−x) < ⊤ is neither ⊤ nor ⊥, so it is a real number.
-/
import proofs.«404391_j20134806684373_3_alg».proof.Pre_finite_inputs
import proofs.«404391_j20134806684373_3_alg».proof.Proof.Gen.Pre_finite_inputs
import Idealize.ShloMosaic.Lib.ReduceAll
import Idealize.ShloMosaic.Lib.ValueIdx

noncomputable section

namespace Cert.PreFacts

open Idealize.ShloMosaic
open Cert.Pre_finite_inputs

/-- The scalar shape has one index. -/
instance : Subsingleton S_.Idx := ⟨fun a b => funext fun d => d.elim0⟩

/-- The pattern 0x7F800000 denotes +∞. -/
theorem inf_eq_top : Ideal.ofBits .f32 0x7F800000#32 = ⊤ := by simp [Ideal.ofBits, Ideal.ieee]

/-- On one value: |x| < +∞ says x is a real number (at ⊤ and at ⊥ the maximum of x and −x is ⊤). -/
theorem real_of_abs_lt_inf (x : EReal)
    (h : Ideal.cmp .olt (max x (-x)) (Ideal.ofBits .f32 0x7F800000#32) = 1#1) : ∃ r : ℝ, x = (r : EReal) := by
  rw [inf_eq_top] at h
  induction x using EReal.rec with
  | bot => simp [Ideal.cmp] at h
  | coe r => exact ⟨r, rfl⟩
  | top => simp [Ideal.cmp] at h

/-- The all-index test of |x| < +∞ is 1: every entry of x is a real number. -/
theorem all_real {s : Shape} {axes : List (Fin s.rank)} (x : FVec Ideal s .f32)
    (hb : S_.BroadcastsInDim s (![] : Fin 0 → Fin s.rank)) (hr : s.ReducesTo axes S_) (hu : 0 < S_.numel)
    (e : Host.reduce IntOp.andi (cmpf .olt (Host.absf x) (broadcastInDim s ![] hb (constant S_ .f32 0x7F800000#32)))
          (constantI S_ 1 1#1) hr hu ValueIdx.ix0 = 1#1) :
    ∀ i, ∃ r : ℝ, x i = (r : EReal) :=
  fun i => real_of_abs_lt_inf (x i) (Host.reduce_andi_all _ _ hr hu _ e i)

/-- The all-index test of n ≥ 0 is 1: every word of n is nonnegative read signed. -/
theorem all_nonneg {s : Shape} {axes : List (Fin s.rank)} (n : IVec s 32)
    (hb : S_.BroadcastsInDim s (![] : Fin 0 → Fin s.rank)) (hr : s.ReducesTo axes S_) (hu : 0 < S_.numel)
    (e : Host.reduce IntOp.andi (cmpi .sge n (broadcastInDim s ![] hb (constantI S_ 32 0#32)))
          (constantI S_ 1 1#1) hr hu ValueIdx.ix0 = 1#1) :
    ∀ i, 0 ≤ (n i).toInt := fun i => by
  have h : IntOp.cmpi .sge (n i) 0#32 = 1#1 := Host.reduce_andi_all _ _ hr hu _ e i
  rw [IntOp.cmpi_sge] at h
  exact h

/-- THE PRECONDITION DECODED: the nine float inputs hold real numbers only, and the integer input nonnegative words. -/
theorem of_pre [Cert.Pre_finite_inputs.Facts]
    (x0 : FVec Ideal S2048x96x128 .f32) (x1 : IVec S2048x96 32) (x2 : FVec Ideal S2048x96 .f32) (x3 : FVec Ideal S128x64 .f32)
    (x4 : FVec Ideal S64 .f32) (x5 : FVec Ideal S64x1 .f32) (x6 : FVec Ideal S1 .f32) (x7 : FVec Ideal S100x1 .f32)
    (x8 x9 : FVec Ideal S1 .f32)
    (h : Cert.Pre_finite_inputs.fn (F := Ideal) x0 x1 x2 x3 x4 x5 x6 x7 x8 x9 = fun _ => 1#1) :
    (∀ i, ∃ r : ℝ, x0 i = (r : EReal)) ∧ (∀ i, ∃ r : ℝ, x2 i = (r : EReal)) ∧ (∀ i, ∃ r : ℝ, x3 i = (r : EReal))
    ∧ (∀ i, ∃ r : ℝ, x4 i = (r : EReal)) ∧ (∀ i, ∃ r : ℝ, x5 i = (r : EReal)) ∧ (∀ i, ∃ r : ℝ, x6 i = (r : EReal))
    ∧ (∀ i, ∃ r : ℝ, x7 i = (r : EReal)) ∧ (∀ i, ∃ r : ℝ, x8 i = (r : EReal)) ∧ (∀ i, ∃ r : ℝ, x9 i = (r : EReal))
    ∧ (∀ i, 0 ≤ (x1 i).toInt) := by
  have e := congrFun h ValueIdx.ix0
  dsimp only [fn, fn_part1, fn_part2] at e
  simp only [andi, IntOp.andi_eq_one] at e
  obtain ⟨⟨⟨⟨⟨⟨⟨⟨⟨h0, h2⟩, h3⟩, h4⟩, h5⟩, h6⟩, h7⟩, h8⟩, h9⟩, h1⟩ := e
  exact ⟨all_real x0 _ _ _ h0, all_real x2 _ _ _ h2, all_real x3 _ _ _ h3, all_real x4 _ _ _ h4, all_real x5 _ _ _ h5,
    all_real x6 _ _ _ h6, all_real x7 _ _ _ h7, all_real x8 _ _ _ h8, all_real x9 _ _ _ h9, all_nonneg x1 _ _ _ h1⟩

end Cert.PreFacts

end
-- ==== Proof.Energy.lean ====
/-
  The mathematics of the claim, free of any program.

  A molecule b has 96 atoms; atom a carries a 128-vector X. One hidden layer of 64 units with weights W1, bias b1 and the
  shifted softplus as activation, then a linear read-out with weights W2, give the atom's hidden sum
      H = ∑ h, (softplus (∑ i, X i · W1 i h + b1 h) − ln 2) · W2 h,
  where softplus x = max x 0 + log (1 + exp (−|x|)) and "ln 2" is the one f32 literal both programs carry.
  The atom's energy is the read-out with its bias b2, scaled by s and shifted by m, plus the atom's reference energy t,
  times the atom's mask; a molecule's energy is the sum over its atoms.

  The two programs differ in how they bracket the atom's energy:
      reference:  (((H + b2) · s + m) + t) · mask
      kernel:     (H · s + (t + (b2 · s + m))) · mask
  which agree when H, b2, s, m, t are real numbers (the extended reals do not distribute over infinities), and in how they
  turn an atomic number z into a row of the 100-row reference-energy table: the kernel clips z into [0, 99] first, the
  reference lets a negative z count from the table's end; for z ≥ 0 both read row min z 99.
-/
import Idealize.ShloMosaic.PureOps.Ideal.Laws
import Idealize.ShloMosaic.Lib.ValueIdx

noncomputable section

namespace AtomEnergy

open Idealize.ShloMosaic

/-- The literal both programs subtract after the softplus: the f32 nearest to ln 2, as the extended real it denotes. -/
def shift : EReal := Ideal.ofBits .f32 0x3F317218#32

/-- softplus x = max x 0 + log (1 + exp (−|x|)), with |x| = max x (−x). -/
def softplus (x : EReal) : EReal := max x 0 + Ideal.log1p (Ideal.exp (-(max x (-x))))

/-- An atom's hidden sum: the read-out of the shifted-softplus layer. -/
def hidden (X : Fin 128 → EReal) (W1 : Fin 128 → Fin 64 → EReal) (b1 W2 : Fin 64 → EReal) : EReal :=
  ∑ h : Fin 64, (softplus (∑ i : Fin 128, X i * W1 i h + b1 h) - shift) * W2 h

/-- The reference's bracketing of one atom's masked energy. -/
def atomRef (H b2 s m t mask : EReal) : EReal := (((H + b2) * s + m) + t) * mask

/-- The kernel's bracketing of one atom's masked energy. -/
def atomKer (H b2 s m t mask : EReal) : EReal := (H * s + (t + (b2 * s + m))) * mask

/-! ## Real numbers stay real -/

/-- A finite sum of extended reals that are all real is real. -/
theorem real_sum {ι : Type} (s : Finset ι) (f : ι → EReal) (hf : ∀ i ∈ s, ∃ r : ℝ, f i = (r : EReal)) :
    ∃ r : ℝ, ∑ i ∈ s, f i = (r : EReal) := by
  classical
  induction s using Finset.induction_on with
  | empty => exact ⟨0, by simp⟩
  | insert a s ha ih =>
    obtain ⟨ra, hra⟩ := hf a (Finset.mem_insert_self a s)
    obtain ⟨rs, hrs⟩ := ih (fun i hi => hf i (Finset.mem_insert_of_mem hi))
    exact ⟨ra + rs, by rw [Finset.sum_insert ha, hra, hrs, EReal.coe_add]⟩

/-- The literal is a real number. -/
theorem shift_real : ∃ r : ℝ, shift = (r : EReal) := by
  have h1 : shift ≠ ⊤ := by
    simp only [shift, Ideal.ofBits, Ideal.ieee]
    simp [-EReal.coe_mul]
  have h2 : shift ≠ ⊥ := by
    simp only [shift, Ideal.ofBits, Ideal.ieee]
    simp [-EReal.coe_mul]
  exact ⟨shift.toReal, (EReal.coe_toReal h1 h2).symm⟩

/-- The softplus of a real number is real: exp (−|x|) is a positive real, so 1 + it is positive and its logarithm real. -/
theorem softplus_real (x : ℝ) : ∃ r : ℝ, softplus (x : EReal) = (r : EReal) := by
  unfold softplus Ideal.log1p
  refine ⟨max x 0 + Real.log (1 + Real.exp (-(max x (-x)))), ?_⟩
  have e1 : max (x : EReal) (-(x : EReal)) = ((max x (-x) : ℝ) : EReal) := by
    rw [← EReal.coe_neg]; exact (EReal.coe_strictMono.monotone.map_max).symm
  have e0 : max (x : EReal) 0 = ((max x 0 : ℝ) : EReal) := by
    rw [← EReal.coe_zero]; exact (EReal.coe_strictMono.monotone.map_max).symm
  rw [e1, e0, ← EReal.coe_neg, Ideal.exp_coe, ← EReal.coe_one, ← EReal.coe_add, Ideal.log_coe,
    if_neg (by have := Real.exp_pos (-(max x (-x))); linarith), ← EReal.coe_add]

/-- An atom's hidden sum is real when its inputs are. -/
theorem hidden_real (X : Fin 128 → EReal) (W1 : Fin 128 → Fin 64 → EReal) (b1 W2 : Fin 64 → EReal)
    (hX : ∀ i, ∃ r : ℝ, X i = (r : EReal)) (hW1 : ∀ i h, ∃ r : ℝ, W1 i h = (r : EReal))
    (hb1 : ∀ h, ∃ r : ℝ, b1 h = (r : EReal)) (hW2 : ∀ h, ∃ r : ℝ, W2 h = (r : EReal)) :
    ∃ r : ℝ, hidden X W1 b1 W2 = (r : EReal) := by
  unfold hidden
  refine real_sum _ _ fun h _ => ?_
  obtain ⟨p, hp⟩ := real_sum Finset.univ (fun i => X i * W1 i h) (fun i _ => by
    obtain ⟨a, ha⟩ := hX i; obtain ⟨b, hb⟩ := hW1 i h
    exact ⟨a * b, by rw [ha, hb, EReal.coe_mul]⟩)
  obtain ⟨c, hc⟩ := hb1 h
  obtain ⟨w, hw⟩ := hW2 h
  obtain ⟨l, hl⟩ := shift_real
  obtain ⟨q, hq⟩ := softplus_real (p + c)
  refine ⟨(q - l) * w, ?_⟩
  rw [hp, hc, ← EReal.coe_add, hq, hl, hw, ← EReal.coe_sub, ← EReal.coe_mul]

/-- The two bracketings agree on real numbers. -/
theorem atomRef_eq_atomKer (H b2 s m t : ℝ) (mask : EReal) :
    atomRef H b2 s m t mask = atomKer H b2 s m t mask := by
  unfold atomRef atomKer
  congr 1
  rw [← EReal.coe_add, ← EReal.coe_mul, ← EReal.coe_add, ← EReal.coe_add, ← EReal.coe_mul, ← EReal.coe_mul,
    ← EReal.coe_add, ← EReal.coe_add, ← EReal.coe_add]
  congr 1
  ring

end AtomEnergy

end
-- ==== Proof.LibPlainMatmul.lean ====
/-
  General lemmas, free of any program.

  * A `tpu.matmul` of an m×k block by a k×n block into the zero accumulator, read at the entry (a, b) at the ideal
    values, is the plain sum over the contracted coordinate c of A(a, c) · B(c, b): no accumulator term, no chunk order.
    Stated for the record `DotDims.plain m k n` and for any record equal to it (a printed record of the same six
    lists differs from it only in its well-formedness proof).
  * The two coordinates of a rank-2 index built from a pair.
  * The coercion of the reals into the extended reals commutes with finite sums and with the maximum of two reals.
-/
import Idealize.ShloMosaic.PureOps.Ideal.Laws
import Idealize.ShloMosaic.Lib.ValueIdx

noncomputable section

namespace PlainMatmul

open Idealize.ShloMosaic Idealize.ShloMosaic.ValueIdx

/-- The entry (a, b) of the product of an m×k by a k×n matrix accumulated into zero is `∑ c, A(a, c) · B(c, b)`. -/
theorem matmul_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (F := Ideal) (DotDims.plain m k n) prec A B (constant ⟨2, ![m, n]⟩ .f32 0x00000000#32) (ix2 a b)
      = ∑ c : Fin k, A (ix2 a c) * B (ix2 c b) := by
  show FloatOps.matmul _ prec A B _ (ix2 a b) = _
  rw [Ideal.matmul_constant_zero_apply, ← Equiv.sum_comp (contrEquiv1 (DotDims.plain m k n) k rfl rfl).symm]
  refine Finset.sum_congr rfl fun c _ => ?_
  -- the contraction index built from c has c on its one axis
  have hc := contrEquiv1_symm_val (DotDims.plain m k n) k rfl rfl c
  -- the left operand is read at (a, c): axis 0 is the output's row, axis 1 the contracted coordinate
  have hl : (DotDims.plain m k n).lhsIdx (ix2 a b) ((contrEquiv1 _ k rfl rfl).symm c) = ix2 a c := by
    funext ax; apply Fin.ext
    match ax with
    | ⟨0, _⟩ => simp [DotDims.lhsIdx, DotDims.plain]; rfl
    | ⟨1, _⟩ => exact ((DotDims.plain m k n).lhsIdx_val_of_single rfl (ix2 a b) _).trans hc
  -- the right operand is read at (c, b)
  have hr : (DotDims.plain m k n).rhsIdx (ix2 a b) ((contrEquiv1 _ k rfl rfl).symm c) = ix2 c b := by
    funext ax; apply Fin.ext
    match ax with
    | ⟨0, _⟩ => exact ((DotDims.plain m k n).rhsIdx_val_of_single rfl (ix2 a b) _).trans hc
    | ⟨1, _⟩ => simp [DotDims.rhsIdx, DotDims.plain]; rfl
  rw [hl, hr]

/-- The same for any record that IS the plain one. -/
theorem matmul_zero_apply_of_eq {m k n : Nat} {φ₁ φ₂ : FTy} (d : DotDims ⟨2, ![m, k]⟩ ⟨2, ![k, n]⟩ ⟨2, ![m, n]⟩)
    (hd : d = DotDims.plain m k n) (prec : Option ContractPrecision)
    (A : FVec Ideal ⟨2, ![m, k]⟩ φ₁) (B : FVec Ideal ⟨2, ![k, n]⟩ φ₂) (a : Fin m) (b : Fin n) :
    matmul (F := Ideal) d prec A B (constant ⟨2, ![m, n]⟩ .f32 0x00000000#32) (ix2 a b)
      = ∑ c : Fin k, A (ix2 a c) * B (ix2 c b) := by
  subst hd; exact matmul_zero_apply prec A B a b

/-- A finite sum of reals, coerced, is the sum of the coerced terms. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The first coordinate of the index built from (a, b) is a. -/
theorem ix2_at0 {n0 n1 : Nat} (a : Fin n0) (b : Fin n1) : (ix2 a b 0 : Fin n0) = a := rfl
/-- The second coordinate of the index built from (a, b) is b. -/
theorem ix2_at1 {n0 n1 : Nat} (a : Fin n0) (b : Fin n1) : (ix2 a b 1 : Fin n1) = b := rfl

/-- The coercion is monotone, so it commutes with the maximum. -/
theorem coe_max (a b : ℝ) : ((max a b : ℝ) : EReal) = max (a : EReal) (b : EReal) :=
  EReal.coe_strictMono.monotone.map_max

end PlainMatmul

end
-- ==== Proof.KernelBody.lean ====
/-
  What one grid point computes: row r of the block's 128 results is the masked sum over the 96 atoms of the point's molecule r.
-/
import proofs.«404391_j20134806684373_3_alg».proof.Proof.Gen.KernelIdeal.Skeleton
import proofs.«404391_j20134806684373_3_alg».proof.Proof.Energy
import proofs.«404391_j20134806684373_3_alg».proof.Proof.LibPlainMatmul
import Idealize.ShloMosaic.Lib.Pipeline.Value
import Idealize.ShloMosaic.Lib.ValueIdx
import Idealize.ShloMosaic.PureOps.Ideal.Laws

noncomputable section

namespace Cert.KernelIdeal.Body

open Idealize.ShloMosaic Idealize.ShloMosaic.ValueIdx Cert.KernelIdeal Cert.KernelIdeal.Gen AtomEnergy

/-! ## The layout steps, each read at an index -/

/-- Flattening the block's (molecule, atom) pairs into matrix rows: row r·96 + a is atom a of molecule r. -/
theorem flatten_apply {α : Type} (v : S128x96x128.Idx → α) (h : S128x96x128.ShapeCasts S12288x128)
    (r : Fin 128) (a : Fin 96) (i : Fin 128) :
    shapeCast S12288x128 v h (ix2 ⟨r.val * 96 + a.val, by omega⟩ i) = v (ix3 r a i) :=
  shapeCast_apply v h _ _ (by
    rw [Shape.rowMajor_val_three, Shape.rowMajor_val_two]
    show (r.val * 96 + a.val) * 128 + i.val = (r.val * 96 + a.val) * 128 + i.val
    rfl)

/-- And back: entry (r, a, h) of the unflattened product is row r·96 + a, column h. -/
theorem unflatten_apply {α : Type} (v : S12288x64.Idx → α) (h : S12288x64.ShapeCasts S128x96x64)
    (r : Fin 128) (a : Fin 96) (k : Fin 64) :
    shapeCast S128x96x64 v h (ix3 r a k) = v (ix2 ⟨r.val * 96 + a.val, by omega⟩ k) :=
  shapeCast_apply v h _ _ (by
    rw [Shape.rowMajor_val_three, Shape.rowMajor_val_two]
    show (r.val * 96 + a.val) * 64 + k.val = (r.val * 96 + a.val) * 64 + k.val
    rfl)

/-- A [1, 64] row spread over a [128, 96, 64] block: entry (r, a, k) is the row's entry k. -/
theorem row_spread_apply {α : Type} (v : S1x64.Idx → α) (h1 : S1x64.ShapeCasts S1x64) (h2 : S1x64.ShapeCasts S1x1x64)
    (h3 : S1x1x64.Broadcasts S128x96x64) (r : Fin 128) (a : Fin 96) (k : Fin 64) :
    broadcastTo S128x96x64 (shapeCast S1x1x64 (shapeCast S1x64 v h1) h2) h3 (ix3 r a k) = v (ix2 0 k) := by
  rw [shapeCast_self]
  refine (broadcastTo_apply _ h3 (ix3 r a k) (ix3 0 0 k) (fun ax => ?_)).trans ?_
  · match ax with
    | ⟨0, _⟩ => rfl
    | ⟨1, _⟩ => rfl
    | ⟨2, _⟩ => rfl
  · exact shapeCast_apply v h2 _ _ (by
      rw [Shape.rowMajor_val_three, Shape.rowMajor_val_two]; rfl)

/-- A [1, 1] scalar spread over a [128, 96] block. -/
theorem scalar_spread_apply {α : Type} (v : S1x1.Idx → α) (h1 : S1x1.ShapeCasts S1x1) (h3 : S1x1.Broadcasts S128x96)
    (r : Fin 128) (a : Fin 96) :
    broadcastTo S128x96 (shapeCast S1x1 v h1) h3 (ix2 r a) = v (ix2 0 0) := by
  rw [shapeCast_self]
  exact broadcastTo_apply _ h3 (ix2 r a) (ix2 0 0) (fun ax => by
    match ax with
    | ⟨0, _⟩ => rfl
    | ⟨1, _⟩ => rfl)

/-! ## The body's arithmetic, stage by stage -/

/-- The inserted coordinate of a lane sum over the last axis of a [128, 96, 64] block. -/
theorem lift3 (h : S128x96x64.Reduces [2] S128x96) (r : Fin 128) (a : Fin 96) (k : Fin 64) :
    h.lift (ix2 r a) k = ix3 r a k := by
  funext c; refine Fin.ext ?_
  match c with
  | ⟨0, _⟩ => rfl
  | ⟨1, _⟩ => rfl
  | ⟨2, _⟩ => rfl

/-- The inserted coordinate of a sum over the atoms of a [128, 96] block. -/
theorem lift2 (h : S128x96.Reduces [1] S128) (r : Fin 128) (a : Fin 96) :
    h.lift (ix1 r) a = ix2 r a := by
  funext c; refine Fin.ext ?_
  match c with
  | ⟨0, _⟩ => rfl
  | ⟨1, _⟩ => rfl

/-- The pre-activation of hidden unit k of atom a of molecule r: the matrix product's row r·96 + a plus the bias. -/
theorem preact_apply (x0 : FVec Ideal S128x96x128 .f32) (x3 : FVec Ideal S128x64 .f32) (x7 : FVec Ideal S1x64 .f32)
    (r : Fin 128) (a : Fin 96) (k : Fin 64) :
    addf (shapeCast S128x96x64
          (matmul dot_S12288x128_S128x64_S12288x64_1_0_0_1_n_n none
            (shapeCast S12288x128 (truncf .bf16 x0 bitsLt_bf16_f32) shapeCasts_S128x96x128_S12288x128)
            (truncf .bf16 x3 bitsLt_bf16_f32) (constant S12288x64 .f32 0x00000000#32))
          shapeCasts_S12288x64_S128x96x64)
        (broadcastTo S128x96x64 (shapeCast S1x1x64 (shapeCast S1x64 x7 shapeCasts_S1x64_S1x64) shapeCasts_S1x64_S1x1x64)
          broadcasts_S1x1x64_S128x96x64) (ix3 r a k)
      = ∑ i : Fin 128, x0 (ix3 r a i) * x3 (ix2 i k) + x7 (ix2 0 k) := by
  refine (addf_apply _ _ _).trans ?_
  refine congrArg₂ (· + ·) ?_ (row_spread_apply x7 _ _ _ r a k)
  refine (unflatten_apply _ _ r a k).trans ?_
  refine (PlainMatmul.matmul_zero_apply_of_eq _ rfl none _ _ ⟨r.val * 96 + a.val, by omega⟩ k).trans ?_
  refine Finset.sum_congr rfl fun i _ => ?_
  refine congrArg₂ (· * ·) ?_ rfl
  exact flatten_apply (truncf .bf16 x0 bitsLt_bf16_f32) _ r a i

/-- The read-out of the shifted-softplus layer as a lane sum, over any pre-activations P and read-out weights W. -/
theorem hidden_lane_sum (P W : FVec Ideal S128x96x64 .f32) (h : S128x96x64.Reduces [2] S128x96) (hφ : FKind.Formats .f32)
    (hacc : (0x00000000#32 : BitVec 32) = FKind.add.neutral .f32 hφ) (r : Fin 128) (a : Fin 96)
    (pre w : Fin 64 → EReal) (hP : ∀ k, P (ix3 r a k) = pre k) (hW : ∀ k, W (ix3 r a k) = w k) :
    multiReduction .add [2] S128x96
        (mulf (subf (addf (maximumf P (broadcast S128x96x64 (FloatOps.ofBits .f32 0x00000000#32)))
                (log1p (exp (subf (broadcast S128x96x64 (FloatOps.ofBits .f32 0x00000000#32)) (absf P)))))
              (broadcast S128x96x64 (FloatOps.ofBits .f32 0x3F317218#32))) W)
        0x00000000#32 h hφ hacc (ix2 r a)
      = ∑ k : Fin 64, (softplus (pre k) - shift) * w k := by
  refine (Ideal.multiReduction_add_single _ _ h hφ hacc (ix2 r a)).trans (Finset.sum_congr rfl fun (k : Fin 64) _ => ?_)
  rw [lift3 h r a k]
  show (max (P (ix3 r a k)) (Ideal.ofBits .f32 0x00000000#32)
        + Ideal.log1p (Ideal.exp (Ideal.ofBits .f32 0x00000000#32 - max (P (ix3 r a k)) (-(P (ix3 r a k)))))
        - Ideal.ofBits .f32 0x3F317218#32) * W (ix3 r a k) = _
  rw [hP, hW, Ideal.ofBits_zero_f32, zero_sub]
  rfl

/-- A sum over the atoms of a [128, 96] block whose row r is known entry by entry. -/
theorem atoms_sum (V : FVec Ideal S128x96 .f32) (h : S128x96.Reduces [1] S128) (hφ : FKind.Formats .f32)
    (hacc : (0x00000000#32 : BitVec 32) = FKind.add.neutral .f32 hφ) (r : Fin 128) (f : Fin 96 → EReal)
    (hV : ∀ a, V (ix2 r a) = f a) :
    multiReduction .add [1] S128 V 0x00000000#32 h hφ hacc (ix1 r) = ∑ a : Fin 96, f a := by
  refine (Ideal.multiReduction_add_single _ _ h hφ hacc (ix1 r)).trans (Finset.sum_congr rfl fun (a : Fin 96) _ => ?_)
  rw [lift2 h r a]
  exact hV a

/-! ## The body's result at a row -/

/-- Row r of a grid point's 128 results: the sum over the 96 atoms of molecule r of
    (hidden sum · s + additive term) · mask, all read off the point's blocks. -/
theorem pay2_apply (x0 : FVec Ideal S128x96x128 .f32) (x3 : FVec Ideal S128x64 .f32) (x7 x22 : FVec Ideal S1x64 .f32)
    (x28 : FVec Ideal S1x1 .f32) (x32 x35 : FVec Ideal S128x96 .f32) (r : Fin 128) :
    k0_pay2 (F := Ideal) x0 x3 x7 x22 x28 x32 x35 (ix1 r)
      = ∑ a : Fin 96, (hidden (fun i => x0 (ix3 r a i)) (fun i h => x3 (ix2 i h)) (fun h => x7 (ix2 0 h)) (fun h => x22 (ix2 0 h))
          * x28 (ix2 0 0) + x32 (ix2 r a)) * x35 (ix2 r a) := by
  unfold k0_pay2
  dsimp only
  refine atoms_sum _ _ _ _ r _ (fun a => ?_)
  refine (mulf_apply _ _ _).trans ?_
  refine congrArg (· * x35 (ix2 r a)) ?_
  refine (addf_apply _ _ _).trans ?_
  refine congrArg₂ (· + ·) ?_ (congrFun (shapeCast_self x32 _) (ix2 r a))
  refine (mulf_apply _ _ _).trans ?_
  refine congrArg₂ (· * ·) ?_ (scalar_spread_apply x28 _ _ r a)
  exact hidden_lane_sum _ _ _ _ _ r a _ _ (fun k => preact_apply x0 x3 x7 r a k) (fun k => row_spread_apply x22 _ _ _ r a k)

/-- The stored block adds two leading unit axes: entry (0, 0, r) is row r. -/
theorem pay1_apply (v : FVec Ideal S128 .f32) (r : Fin 128) : k0_pay1 (F := Ideal) v (ix3 0 0 r) = v (ix1 r) := by
  unfold k0_pay1
  exact shapeCast_apply v _ _ _ (by
    rw [Shape.rowMajor_val_three, Shape.rowMajor_val_one]
    show r.val = (0 * 1 + 0) * 128 + r.val
    omega)

end Cert.KernelIdeal.Body

end
-- ==== Proof.TableRow.lean ====
/-
  Which row of the 100-row reference-energy table an atomic number selects.

  Both programs look the table up with a gather whose start index is read as a signed integer and clamped into [0, 99].
  The reference first lets a negative atomic number z count from the table's end (z + 100 when z < 0); the kernel first
  clips z into [0, 99] and then applies the same rule, which is the identity on a clipped number. For z ≥ 0 both
  therefore read row min z 99.
-/
import Idealize.ShloMosaic.PureOps.Ideal.Laws
import Idealize.ShloMosaic.Lib.ValueIdx

noncomputable section

namespace AtomEnergy

open Idealize.ShloMosaic Idealize.ShloMosaic.ValueIdx

/-! ## The gather of one row, read at an index -/

/-- The dimension numbers of `table[idx]` for a [100, 1] table and a [2048, 96] index array carried as [2048, 96, 1]:
    the start index names a row (axis 0, collapsed), the row's one column is the offset axis. -/
abbrev rowDims (wf : GatherDims.WF ⟨2, ![100, 1]⟩ ⟨3, ![2048, 96, 1]⟩ ⟨3, ![2048, 96, 1]⟩ [2] [0] [] [0] [] 2 ![1, 1]) :
    GatherDims ⟨2, ![100, 1]⟩ ⟨3, ![2048, 96, 1]⟩ ⟨3, ![2048, 96, 1]⟩ where
  offsetDims := [2]
  collapsedSliceDims := [0]
  operandBatchingDims := []
  startIndicesBatchingDims := []
  startIndexMap := [0]
  indexVectorDim := 2
  sliceSizes := ![1, 1]
  wf := wf

/-- The gather at (b, a, 0) is the table's row min (idx (b, a, 0)) 99, the index read signed, column 0. -/
theorem gather_row_apply {α : Type} {w : Nat}
    (wf : GatherDims.WF ⟨2, ![100, 1]⟩ ⟨3, ![2048, 96, 1]⟩ ⟨3, ![2048, 96, 1]⟩ [2] [0] [] [0] [] 2 ![1, 1])
    (x : (⟨2, ![100, 1]⟩ : Shape).Idx → α) (idx : IVec ⟨3, ![2048, 96, 1]⟩ w) (b : Fin 2048) (a : Fin 96) :
    Host.gather (rowDims wf) x idx (ix3 b a 0)
      = x (ix2 ⟨min (idx (ix3 b a 0)).toInt.toNat 99, by omega⟩ 0) := by
  unfold Host.gather
  congr 1
  funext ax
  refine Fin.ext ?_
  match ax with
  | ⟨0, _⟩ =>
    show (rowDims wf).start (ix3 b a 0) idx 0 + (rowDims wf).batchCoord (ix3 b a 0) 0 + (rowDims wf).offCoord (ix3 b a 0) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims wf).startIndexMap from List.mem_singleton.mpr rfl)]
    have hsi : (rowDims wf).siIdx (ix3 b a 0) ⟨List.idxOf (0 : Fin 2) (rowDims wf).startIndexMap,
        List.idxOf_lt_length_iff.2 (List.mem_singleton.mpr rfl)⟩ = ix3 b a 0 := by
      funext c; refine Fin.ext ?_
      match c with
      | ⟨0, _⟩ => rfl
      | ⟨1, _⟩ => rfl
      | ⟨2, _⟩ => rfl
    rw [hsi]
    rfl
  | ⟨1, _⟩ =>
    show (rowDims wf).start (ix3 b a 0) idx 1 + (rowDims wf).batchCoord (ix3 b a 0) 1 + (rowDims wf).offCoord (ix3 b a 0) 1 = 0
    rw [GatherDims.batchCoord_eq_zero _ _ _ List.not_mem_nil]
    have h1 : (rowDims wf).start (ix3 b a 0) idx 1 = 0 := by
      unfold GatherDims.start
      rw [dif_neg (show ¬ (1 : Fin 2) ∈ ([0] : List (Fin 2)) by decide)]
    have h2 : (rowDims wf).offCoord (ix3 b a 0) 1 < 1 :=
      (rowDims wf).offCoord_lt (ix3 b a 0) 1 ((GatherDims.mem_sKept _ _).mpr ⟨(show ¬ (1 : Fin 2) ∈ ([0] : List (Fin 2)) by decide), List.not_mem_nil⟩)
    omega

/-! ## The two row rules on a non-negative atomic number -/

/-- The reference's rule: a negative number counts from the table's end. -/
def wrapRow (z : BitVec 32) : BitVec 32 := Scalar.select (IntOp.cmpi .slt z 0#32) (IntOp.addi z 100#32) z

/-- The kernel's rule: clip into [0, 99] first. -/
def clipRow (z : BitVec 32) : BitVec 32 := wrapRow (IntOp.minsi 99#32 (IntOp.maxsi 0#32 z))

/-- A non-negative number is left alone by the wrap-around rule. -/
theorem wrapRow_of_nonneg (z : BitVec 32) (hz : 0 ≤ z.toInt) : wrapRow z = z := by
  unfold wrapRow IntOp.cmpi Scalar.select
  have h0 : z.slt 0#32 = false := by
    simp only [BitVec.slt, BitVec.toInt_zero, decide_eq_false_iff_not, not_lt]; exact hz
  simp only [h0]
  rfl

/-- For z ≥ 0 the clipped number, read signed and clamped to 99, is z clamped to 99. -/
theorem clipRow_clamp (z : BitVec 32) (hz : 0 ≤ z.toInt) :
    min (clipRow z).toInt.toNat 99 = min z.toInt.toNat 99 := by
  unfold clipRow IntOp.maxsi IntOp.minsi
  have h0 : z.slt 0#32 = false := by
    simp only [BitVec.slt, BitVec.toInt_zero, decide_eq_false_iff_not, not_lt]; exact hz
  simp only [h0, Bool.false_eq_true, if_false]
  have e99 : (99#32 : BitVec 32).toInt = 99 := by decide
  by_cases h : (99#32 : BitVec 32).slt z = true
  · rw [if_pos h, wrapRow_of_nonneg _ (by rw [e99]; decide), e99]
    have : (99 : Int) < z.toInt := by
      simp only [BitVec.slt, decide_eq_true_eq, e99] at h; exact h
    omega
  · rw [if_neg h, wrapRow_of_nonneg _ hz]

end AtomEnergy

end
-- ==== Proof.Bridge.lean ====
/-
  A molecule's energy as each program brackets it, and why the two agree.

  With H the atom's hidden sum, b2, s, m the read-out bias, the scale and the shift, t the atom's reference energy (a row of
  the table chosen by the atomic number) and mask the atom's mask, the reference sums (((H + b2)·s + m) + t)·mask over a
  molecule's 96 atoms and the kernel sums (H·s + (t + (b2·s + m)))·mask. When every float input is a real number, H is real
  (sums, products, max, exp and log of 1 + a positive number keep reals real), so each atom's two bracketings are one real
  expression; and when the atomic numbers are non-negative both programs read the same table row. Hence the two sums agree
  atom by atom.
-/
import proofs.«404391_j20134806684373_3_alg».proof.Proof.Energy
import proofs.«404391_j20134806684373_3_alg».proof.Proof.TableRow

noncomputable section

namespace AtomEnergy

open Idealize.ShloMosaic Idealize.ShloMosaic.ValueIdx

section
variable (rep : (⟨3, ![2048, 96, 128]⟩ : Shape).Idx → EReal) (z : (⟨2, ![2048, 96]⟩ : Shape).Idx → BitVec 32)
  (mask : (⟨2, ![2048, 96]⟩ : Shape).Idx → EReal) (W1 : (⟨2, ![128, 64]⟩ : Shape).Idx → EReal)
  (b1 : (⟨1, ![64]⟩ : Shape).Idx → EReal) (W2 : (⟨2, ![64, 1]⟩ : Shape).Idx → EReal) (b2 : (⟨1, ![1]⟩ : Shape).Idx → EReal)
  (tab : (⟨2, ![100, 1]⟩ : Shape).Idx → EReal) (mean sd : (⟨1, ![1]⟩ : Shape).Idx → EReal)

/-- The hidden sum of atom a of molecule b. -/
def hiddenAt (b : Fin 2048) (a : Fin 96) : EReal :=
  hidden (fun i => rep (ix3 b a i)) (fun i h => W1 (ix2 i h)) (fun h => b1 (ix1 h)) (fun h => W2 (ix2 h 0))

/-- The table row a signed word selects after clamping into [0, 99]. -/
def rowOf (w : BitVec 32) : (⟨2, ![100, 1]⟩ : Shape).Idx := ix2 ⟨min w.toInt.toNat 99, by omega⟩ 0

/-- Two words that clamp to the same number select the same row. -/
theorem rowOf_congr {w w' : BitVec 32} (h : min w.toInt.toNat 99 = min w'.toInt.toNat 99) : rowOf w = rowOf w' := by
  unfold rowOf
  have e : (⟨min w.toInt.toNat 99, by omega⟩ : Fin 100) = ⟨min w'.toInt.toNat 99, by omega⟩ := Fin.ext h
  rw [e]

/-- A molecule's energy as the reference computes it. -/
def energyRef (b : Fin 2048) : EReal :=
  ∑ a : Fin 96, atomRef (hiddenAt rep W1 b1 W2 b a) (b2 (ix1 0)) (sd (ix1 0)) (mean (ix1 0))
    (tab (rowOf (wrapRow (z (ix2 b a))))) (mask (ix2 b a))

/-- A molecule's energy as the kernel computes it. -/
def energyKer (b : Fin 2048) : EReal :=
  ∑ a : Fin 96, atomKer (hiddenAt rep W1 b1 W2 b a) (b2 (ix1 0)) (sd (ix1 0)) (mean (ix1 0))
    (tab (rowOf (clipRow (z (ix2 b a))))) (mask (ix2 b a))

/-- Under the precondition — every float input real, every atomic number non-negative — the two agree. -/
theorem energyKer_eq_energyRef
    (hrep : ∀ i, ∃ r : ℝ, rep i = (r : EReal)) (hW1 : ∀ i, ∃ r : ℝ, W1 i = (r : EReal)) (hb1 : ∀ i, ∃ r : ℝ, b1 i = (r : EReal))
    (hW2 : ∀ i, ∃ r : ℝ, W2 i = (r : EReal)) (hb2 : ∀ i, ∃ r : ℝ, b2 i = (r : EReal)) (htab : ∀ i, ∃ r : ℝ, tab i = (r : EReal))
    (hmean : ∀ i, ∃ r : ℝ, mean i = (r : EReal)) (hsd : ∀ i, ∃ r : ℝ, sd i = (r : EReal)) (hz : ∀ i, 0 ≤ (z i).toInt)
    (b : Fin 2048) :
    energyKer rep z mask W1 b1 W2 b2 tab mean sd b = energyRef rep z mask W1 b1 W2 b2 tab mean sd b := by
  unfold energyKer energyRef
  refine Finset.sum_congr rfl fun a _ => ?_
  -- both programs read the same row
  have hrow : rowOf (clipRow (z (ix2 b a))) = rowOf (wrapRow (z (ix2 b a))) :=
    rowOf_congr (by rw [clipRow_clamp _ (hz _), wrapRow_of_nonneg _ (hz _)])
  rw [hrow]
  -- and every ingredient of the atom's energy is real
  obtain ⟨H, hH⟩ := hidden_real (fun i => rep (ix3 b a i)) (fun i h => W1 (ix2 i h)) (fun h => b1 (ix1 h)) (fun h => W2 (ix2 h 0))
    (fun i => hrep _) (fun i h => hW1 _) (fun h => hb1 _) (fun h => hW2 _)
  obtain ⟨rb2, hb2'⟩ := hb2 (ix1 0)
  obtain ⟨rs, hs⟩ := hsd (ix1 0)
  obtain ⟨rm, hm⟩ := hmean (ix1 0)
  obtain ⟨rt, ht⟩ := htab (rowOf (wrapRow (z (ix2 b a))))
  unfold hiddenAt
  rw [hH, hb2', hs, hm, ht]
  exact (atomRef_eq_atomKer H rb2 rs rm rt _).symm

end

end AtomEnergy

end
-- ==== Proof.KernelValue.lean ====
/-
  What the kernel's program leaves in its result.

  Before the region the host clips the atomic numbers, looks their rows up in the table and adds b2·s + m (the additive
  term), and lays the bias, the read-out weights and the scale out as [1, 64], [1, 64] and [1, 1] arrays. Grid point t
  sees molecules t·128 … t·128 + 127: its blocks of the representation, the additive term and the mask are rows of those
  arrays, and the weights, the bias and the scale are the whole small arrays. Row r of what the point writes back is
  therefore the kernel's bracketing of the energy of molecule t·128 + r; the 16 points' blocks tile the [16, 1, 128]
  result, and the two reshapes after the region lay it out as [2048, 1] in the molecules' order.
-/
import proofs.«404391_j20134806684373_3_alg».proof.Proof.Gen.KernelIdeal.Frame
import proofs.«404391_j20134806684373_3_alg».proof.Proof.KernelBody
import proofs.«404391_j20134806684373_3_alg».proof.Proof.Bridge
import Idealize.ShloMosaic.Lib.Pipeline.Value
import Idealize.ShloMosaic.Lib.StableHlo.Run
import Idealize.ShloMosaic.Lib.ValueIdx
import Idealize.ShloMosaic.PureOps.Ideal.Laws

set_option maxRecDepth 16384

noncomputable section

namespace Cert.KernelIdeal.Result

open Idealize.ShloMosaic Idealize.ShloMosaic.TcCoe Idealize.ShloMosaic.ValueIdx Idealize.SL.Sem Idealize.ShloMosaic.StableHlo
open Idealize.ShloMosaic.Pipeline (Dat Cfg Window)
open Cert.KernelIdeal Cert.KernelIdeal.Gen AtomEnergy

variable (m : (ℓ : Loc nD τ sig) → Buf (Elt Ideal) ℓ) (ρ : Dev nD → PrngReg)

/-! ## The arguments as launched on a core, each at its literal type -/

abbrev rep (c : Dev nD) : FVec Ideal S2048x96x128 .f32 := m ((c : Thread nD τ).loc main_arg0)
abbrev num (c : Dev nD) : IVec S2048x96 32 := m ((c : Thread nD τ).loc main_arg1)
abbrev msk (c : Dev nD) : FVec Ideal S2048x96 .f32 := m ((c : Thread nD τ).loc main_arg2)
abbrev w1 (c : Dev nD) : FVec Ideal S128x64 .f32 := m ((c : Thread nD τ).loc main_arg3)
abbrev bias1 (c : Dev nD) : FVec Ideal S64 .f32 := m ((c : Thread nD τ).loc main_arg4)
abbrev w2 (c : Dev nD) : FVec Ideal S64x1 .f32 := m ((c : Thread nD τ).loc main_arg5)
abbrev bias2 (c : Dev nD) : FVec Ideal S1 .f32 := m ((c : Thread nD τ).loc main_arg6)
abbrev tbl (c : Dev nD) : FVec Ideal S100x1 .f32 := m ((c : Thread nD τ).loc main_arg7)
abbrev mu (c : Dev nD) : FVec Ideal S1 .f32 := m ((c : Thread nD τ).loc main_arg8)
abbrev sd (c : Dev nD) : FVec Ideal S1 .f32 := m ((c : Thread nD τ).loc main_arg9)

/-! ## What the host lines before the region prepare -/

/-- A one-element array reshaped to a scalar holds its element. -/
theorem scalar_of_one {α : Type} (v : S1.Idx → α) (h : S1.ShapeCasts S_) (k : S_.Idx) : shapeCast S_ v h k = v (ix1 0) :=
  shapeCast_apply v h k (ix1 0) (by rw [Shape.rowMajor_val_one]; rfl)

/-- The additive term of atom a of molecule b: the clipped atomic number's table row plus b2·s + m. -/
theorem additive_at (c : Dev nD) (b : Fin 2048) (a : Fin 96) :
    (V m c main_v15 : S2048x96.Idx → EReal) (ix2 b a)
      = tbl m c (rowOf (clipRow (num m c (ix2 b a)))) + (bias2 m c (ix1 0) * sd m c (ix1 0) + mu m c (ix1 0)) := by
  dsimp only [V, V0]
  simp only [hostOps0, hostOps0_1, hostOps0_2, List.flatten_cons, List.flatten_nil, List.append_nil, List.cons_append, List.nil_append]
  after_results_simp
  refine congrArg₂ (· + ·) ?_ ?_
  · refine (shapeCast_apply _ _ (ix2 b a) (ix3 b a 0) (by
      show (S2048x96x1.rowMajor (ix3 b a 0)).val = (S2048x96.rowMajor (ix2 b a)).val
      rw [Shape.rowMajor_val_three, Shape.rowMajor_val_two]
      show (b.val * 96 + a.val) * 1 + 0 = b.val * 96 + a.val
      omega)).trans ?_
    refine (gather_row_apply _ _ _ b a).trans ?_
    refine congrArg (fun w => tbl m c (rowOf w)) ?_
    refine (broadcastInDim_apply _ _ _ (ix3 b a 0) (ix2 b a) (fun ax => by
      match ax with
      | ⟨0, _⟩ => rfl
      | ⟨1, _⟩ => rfl)).trans ?_
    rfl
  · refine (broadcastInDim_apply _ _ _ (ix2 b a) ix0 (fun ax => ax.elim0)).trans ?_
    exact congrArg₂ (· + ·) (congrArg₂ (· * ·) (scalar_of_one (bias2 m c) _ ix0) (scalar_of_one (sd m c) _ ix0))
      (scalar_of_one (mu m c) _ ix0)

/-- The first layer's bias laid out as a row. -/
theorem bias_row_at (c : Dev nD) (h : Fin 64) : (V m c main_v16 : S1x64.Idx → EReal) (ix2 0 h) = bias1 m c (ix1 h) := by
  dsimp only [V, V0]
  simp only [hostOps0, hostOps0_1, hostOps0_2, List.flatten_cons, List.flatten_nil, List.append_nil, List.cons_append, List.nil_append]
  after_results_simp
  exact shapeCast_apply _ _ (ix2 0 h) (ix1 h) (by
    show (S64.rowMajor (ix1 h)).val = (S1x64.rowMajor (ix2 0 h)).val
    rw [Shape.rowMajor_val_one, Shape.rowMajor_val_two]
    show h.val = 0 * 64 + h.val
    omega)

/-- The read-out weights laid out as a row. -/
theorem w2_row_at (c : Dev nD) (h : Fin 64) : (V m c main_v17 : S1x64.Idx → EReal) (ix2 0 h) = w2 m c (ix2 h 0) := by
  dsimp only [V, V0]
  simp only [hostOps0, hostOps0_1, hostOps0_2, List.flatten_cons, List.flatten_nil, List.append_nil, List.cons_append, List.nil_append]
  after_results_simp
  exact shapeCast_apply _ _ (ix2 0 h) (ix2 h 0) (by
    show (S64x1.rowMajor (ix2 h 0)).val = (S1x64.rowMajor (ix2 0 h)).val
    rw [Shape.rowMajor_val_two, Shape.rowMajor_val_two]
    show h.val * 1 + 0 = 0 * 64 + h.val
    omega)

/-- The scale as a [1, 1] array. -/
theorem sd_at (c : Dev nD) : (V m c main_v18 : S1x1.Idx → EReal) (ix2 0 0) = sd m c (ix1 0) := by
  dsimp only [V, V0]
  simp only [hostOps0, hostOps0_1, hostOps0_2, List.flatten_cons, List.flatten_nil, List.append_nil, List.cons_append, List.nil_append]
  after_results_simp
  exact shapeCast_apply _ _ (ix2 0 0) (ix1 0) (by
    show (S1.rowMajor (ix1 0)).val = (S1x1.rowMajor (ix2 0 0)).val
    rw [Shape.rowMajor_val_one, Shape.rowMajor_val_two]
    rfl)

/-! ## The blocks a grid point sees -/

/-- The grid has 16 points. -/
theorem t_lt (t : Fin cfg0.N) : t.val < 16 := by
  have h := t.isLt
  have e : cfg0.N = 16 := N_0
  omega

/-- The printed index maps, decided over the grid: point t sees block t of the molecule axis and block 0 of every other axis. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 3) = t.val ∧ win0_7.index t (1 : Fin 3) = 0 ∧ win0_7.index t (2 : Fin 3) = 0 :=
  (by decide +kernel : ∀ t : Fin grid0.N, _)

/-- The molecule that row r of point t's blocks belongs to. -/
abbrev mol (t : Fin cfg0.N) (r : Fin 128) : Fin 2048 := ⟨t.val * 128 + r.val, by have := t_lt t; omega⟩

theorem blk_rep (c : Dev nD) (t : Fin cfg0.N) (r : Fin 128) (a : Fin 96) (i : Fin 128) :
    iblk m c 0 t (ix3 r a i) = rep m c (ix3 (mol t r) a i) := by
  show V m c main_arg0 (((cfg0.win 0).blk t).view.emb (ix3 r a i)) = _
  refine (congrFun (V_main_arg0 m c) _).trans ?_
  obtain ⟨e0, e1, e2, -⟩ := idx_facts t
  refine congrArg (rep m c) (funext fun ax => Fin.ext ?_)
  match ax with
  | ⟨0, _⟩ => show win0_0.index t (0 : Fin 3) * 128 + 1 * r.val = t.val * 128 + r.val; omega
  | ⟨1, _⟩ => show win0_0.index t (1 : Fin 3) * 96 + 1 * a.val = a.val; omega
  | ⟨2, _⟩ => show win0_0.index t (2 : Fin 3) * 128 + 1 * i.val = i.val; omega

theorem blk_add (c : Dev nD) (t : Fin cfg0.N) (r : Fin 128) (a : Fin 96) :
    iblk m c 1 t (ix2 r a)
      = tbl m c (rowOf (clipRow (num m c (ix2 (mol t r) a)))) + (bias2 m c (ix1 0) * sd m c (ix1 0) + mu m c (ix1 0)) := by
  show V m c main_v15 (((cfg0.win 1).blk t).view.emb (ix2 r a)) = _
  refine Eq.trans ?_ (additive_at m c (mol t r) a)
  obtain ⟨-, -, -, e0, e1, -⟩ := idx_facts t
  refine congrArg (V m c main_v15) (funext fun ax => Fin.ext ?_)
  match ax with
  | ⟨0, _⟩ => show win0_1.index t (0 : Fin 2) * 128 + 1 * r.val = t.val * 128 + r.val; omega
  | ⟨1, _⟩ => show win0_1.index t (1 : Fin 2) * 96 + 1 * a.val = a.val; omega

theorem blk_msk (c : Dev nD) (t : Fin cfg0.N) (r : Fin 128) (a : Fin 96) :
    iblk m c 2 t (ix2 r a) = msk m c (ix2 (mol t r) a) := by
  show V m c main_arg2 (((cfg0.win 2).blk t).view.emb (ix2 r a)) = _
  refine (congrFun (V_main_arg2 m c) _).trans ?_
  obtain ⟨-, -, -, -, -, e0, e1, -⟩ := idx_facts t
  refine congrArg (msk m c) (funext fun ax => Fin.ext ?_)
  match ax with
  | ⟨0, _⟩ => show win0_2.index t (0 : Fin 2) * 128 + 1 * r.val = t.val * 128 + r.val; omega
  | ⟨1, _⟩ => show win0_2.index t (1 : Fin 2) * 96 + 1 * a.val = a.val; omega

theorem blk_w1 (c : Dev nD) (t : Fin cfg0.N) (i : Fin 128) (h : Fin 64) :
    iblk m c 3 t (ix2 i h) = w1 m c (ix2 i h) := by
  show V m c main_arg3 (((cfg0.win 3).blk t).view.emb (ix2 i h)) = _
  refine (congrFun (V_main_arg3 m c) _).trans ?_
  obtain ⟨-, -, -, -, -, -, -, e0, e1, -⟩ := idx_facts t
  refine congrArg (w1 m c) (funext fun ax => Fin.ext ?_)
  match ax with
  | ⟨0, _⟩ => show win0_3.index t (0 : Fin 2) * 128 + 1 * i.val = i.val; omega
  | ⟨1, _⟩ => show win0_3.index t (1 : Fin 2) * 64 + 1 * h.val = h.val; omega

theorem blk_b1 (c : Dev nD) (t : Fin cfg0.N) (h : Fin 64) :
    iblk m c 4 t (ix2 0 h) = bias1 m c (ix1 h) := by
  show V m c main_v16 (((cfg0.win 4).blk t).view.emb (ix2 0 h)) = _
  refine Eq.trans ?_ (bias_row_at m c h)
  obtain ⟨-, -, -, -, -, -, -, -, -, e0, e1, -⟩ := idx_facts t
  refine congrArg (V m c main_v16) (funext fun ax => Fin.ext ?_)
  match ax with
  | ⟨0, _⟩ => show win0_4.index t (0 : Fin 2) * 1 + 1 * 0 = 0; omega
  | ⟨1, _⟩ => show win0_4.index t (1 : Fin 2) * 64 + 1 * h.val = h.val; omega

theorem blk_w2 (c : Dev nD) (t : Fin cfg0.N) (h : Fin 64) :
    iblk m c 5 t (ix2 0 h) = w2 m c (ix2 h 0) := by
  show V m c main_v17 (((cfg0.win 5).blk t).view.emb (ix2 0 h)) = _
  refine Eq.trans ?_ (w2_row_at m c h)
  obtain ⟨-, -, -, -, -, -, -, -, -, -, -, e0, e1, -⟩ := idx_facts t
  refine congrArg (V m c main_v17) (funext fun ax => Fin.ext ?_)
  match ax with
  | ⟨0, _⟩ => show win0_5.index t (0 : Fin 2) * 1 + 1 * 0 = 0; omega
  | ⟨1, _⟩ => show win0_5.index t (1 : Fin 2) * 64 + 1 * h.val = h.val; omega

theorem blk_sd (c : Dev nD) (t : Fin cfg0.N) : iblk m c 6 t (ix2 0 0) = sd m c (ix1 0) := by
  show V m c main_v18 (((cfg0.win 6).blk t).view.emb (ix2 0 0)) = _
  refine Eq.trans ?_ (sd_at m c)
  obtain ⟨-, -, -, -, -, -, -, -, -, -, -, -, -, e0, e1, -⟩ := idx_facts t
  refine congrArg (V m c main_v18) (funext fun ax => Fin.ext ?_)
  match ax with
  | ⟨0, _⟩ => show win0_6.index t (0 : Fin 2) * 1 + 1 * 0 = 0; omega
  | ⟨1, _⟩ => show win0_6.index t (1 : Fin 2) * 1 + 1 * 0 = 0; omega

/-! ## The result array after the region -/

/-- Molecule b's energy as the kernel computes it, of the arguments as launched on core c. -/
def energy (c : Dev nD) (b : Fin 2048) : EReal :=
  energyKer (rep m c) (num m c) (msk m c) (w1 m c) (bias1 m c) (w2 m c) (bias2 m c) (tbl m c) (mu m c) (sd m c) b

/-- The region's [16, 1, 128] result: entry (t, 0, r) is the energy of molecule t·128 + r. -/
def tiles (c : Dev nD) : S16x1x128.Idx → EReal := fun i =>
  energy m c ⟨(i 0).val * 128 + (i 2).val, by
    have h0 : (i 0).val < 16 := (i 0).isLt
    have h2 : (i 2).val < 128 := (i 2).isLt
    omega⟩

theorem hz3 : (![0, 0, 0] : Fin 3 → Nat) = fun _ => 0 := funext fun a => by fin_cases a <;> rfl
theorem hz2 : (![0, 0] : Fin 2 → Nat) = fun _ => 0 := funext fun a => by fin_cases a <;> rfl

/-- WHAT POINT t WRITES BACK is block t of that array. -/
theorem flushed_eq (c : Dev nD) (t : Fin cfg0.N) :
    (dats m 0 c).flushed 7 t = ((cfg0.win 7).blk t).view.read (Elt Ideal) (tiles m c) := by
  show (cfg0.win 7).cut (grid0.coords t) ((dats m 0 c).after 7 t) = _
  rw [after0_7]
  unfold out0_7
  rw [View.canon_unit_zero hz3]
  simp only [View.ld_unit_zero (S := S128x96x128) hz3, View.ld_unit_zero (S := S128x64) hz2, View.ld_unit_zero (S := S1x64) hz2,
    View.ld_unit_zero (S := S1x1) hz2, View.ld_unit_zero (S := S128x96) hz2]
  funext y
  obtain ⟨p, q, r, rfl⟩ : ∃ (p : Fin 1) (q : Fin 1) (r : Fin 128), y = ix3 p q r := ⟨y 0, y 1, y 2, eq_ix3 y⟩
  obtain rfl : p = 0 := Subsingleton.elim _ _
  obtain rfl : q = 0 := Subsingleton.elim _ _
  show k0_pay1 (F := Ideal) (k0_pay2 (F := Ideal) (iblk m c 0 t) (iblk m c 3 t) (iblk m c 4 t) (iblk m c 5 t) (iblk m c 6 t)
      (iblk m c 1 t) (iblk m c 2 t)) (ix3 0 0 r) = tiles m c (((cfg0.win 7).blk t).view.emb (ix3 0 0 r))
  refine (Body.pay1_apply _ r).trans ?_
  refine (Body.pay2_apply _ _ _ _ _ _ _ r).trans ?_
  obtain ⟨-, -, -, -, -, -, -, -, -, -, -, -, -, -, -, e0, e1, e2⟩ := idx_facts t
  have hB : tiles m c (((cfg0.win 7).blk t).view.emb (ix3 0 0 r)) = energy m c (mol t r) := by
    unfold tiles
    refine congrArg (energy m c) (Fin.ext ?_)
    show (win0_7.index t (0 : Fin 3) * 1 + 1 * 0) * 128 + (win0_7.index t (2 : Fin 3) * 128 + 1 * r.val) = t.val * 128 + r.val
    omega
  rw [hB]
  unfold energy energyKer
  refine Finset.sum_congr rfl fun (a : Fin 96) _ => ?_
  unfold atomKer hiddenAt
  refine congrArg₂ (· * ·) (congrArg₂ (· + ·) (congrArg₂ (· * ·) ?_ (blk_sd m c t)) (blk_add m c t r a)) (blk_msk m c t r a)
  exact congr (congr (congr (congrArg AtomEnergy.hidden (funext fun i => blk_rep m c t r a i))
    (funext fun i => funext fun h => blk_w1 m c t i h)) (funext fun h => blk_b1 m c t h)) (funext fun h => blk_w2 m c t h)

/-- An index of the result array is in point t's block iff each coordinate is in the block's range. -/
theorem mem_blk (t : Fin cfg0.N) (i : S16x1x128.Idx) :
    i ∈ ((cfg0.win 7).blk t).view.set ↔ ∀ a : Fin 3, win0_7.index t a * S1x1x128.size a ≤ (i a).val
      ∧ (i a).val < win0_7.index t a * S1x1x128.size a + S1x1x128.size a := by
  show i ∈ ((View.whole main_v19).slice (win0_7.rect t)).set ↔ _
  rw [View.set_slice_whole, Rect.mem_set_unit]
  exact Iff.rfl

/-- Every index (t, 0, r) is in point t's block. -/
theorem cover (i : S16x1x128.Idx) :
    ∃ t : Fin cfg0.N, (cfg0.win 7).flush t = true ∧ i ∈ ((cfg0.win 7).blk t).view.set := by
  have h0 : (i 0).val < 16 := (i 0).isLt
  have h1 : (i 1).val < 1 := (i 1).isLt
  have h2 : (i 2).val < 128 := (i 2).isLt
  have hN : cfg0.N = 16 := N_0
  let t : Fin cfg0.N := ⟨(i 0).val, by omega⟩
  refine ⟨t, flush0_7 t, ?_⟩
  rw [mem_blk]
  obtain ⟨-, -, -, -, -, -, -, -, -, -, -, -, -, -, -, e0, e1, e2⟩ := idx_facts t
  have e0' : win0_7.index t (0 : Fin 3) = (i 0).val := e0
  intro a
  match a with
  | ⟨0, _⟩ => show win0_7.index t (0 : Fin 3) * 1 ≤ (i 0).val ∧ (i 0).val < win0_7.index t (0 : Fin 3) * 1 + 1; omega
  | ⟨1, _⟩ => show win0_7.index t (1 : Fin 3) * 1 ≤ (i 1).val ∧ (i 1).val < win0_7.index t (1 : Fin 3) * 1 + 1; omega
  | ⟨2, _⟩ => show win0_7.index t (2 : Fin 3) * 128 ≤ (i 2).val ∧ (i 2).val < win0_7.index t (2 : Fin 3) * 128 + 128; omega

/-- THE REGION'S RESULT ARRAY after the run. -/
theorem final (c : Dev nD) : (dats m 0 c).arrAt 7 cfg0.N = tiles m c :=
  (dats m 0 c).arrAt_eq_of_cover 7 (tiles m c) (fun t _ => flushed_eq m c t) cover

/-! ## The host lines after the region, and the run -/

/-- THE PROGRAM'S RESULT: the two reshapes after the region lay the [16, 1, 128] array out as [2048, 1], so entry
    (b, 0) is the region's entry (b / 128, 0, b % 128): molecule b's energy. -/
theorem result_eq (c : Dev nD) :
    (Pipeline.afterTail₀ cfgs (dats m) 0 (V0 m) [hostOps1] c main_v21 : S2048x1.Idx → EReal) = fun i => energy m c (i 0) := by
  unfold Pipeline.afterTail₀
  show StableHlo.after hostOps1 _ (Proc.devRef .tc main_v21) = _
  after_results_simp
  funext i
  obtain ⟨b, q, rfl⟩ : ∃ (b : Fin 2048) (q : Fin 1), i = ix2 b q := ⟨i 0, i 1, eq_ix2 i⟩
  obtain rfl : q = 0 := Subsingleton.elim _ _
  refine (shapeCast_apply _ _ (ix2 b 0) (ix1 b) (by
    show (S2048.rowMajor (ix1 b)).val = (S2048x1.rowMajor (ix2 b 0)).val
    rw [Shape.rowMajor_val_one, Shape.rowMajor_val_two]
    show b.val = b.val * 1 + 0
    omega)).trans ?_
  refine (shapeCast_apply _ _ (ix1 b) (ix3 ⟨b.val / 128, by omega⟩ 0 ⟨b.val % 128, by omega⟩) (by
    show (S16x1x128.rowMajor (ix3 ⟨b.val / 128, by omega⟩ 0 ⟨b.val % 128, by omega⟩)).val = (S2048.rowMajor (ix1 b)).val
    rw [Shape.rowMajor_val_three, Shape.rowMajor_val_one]
    show (b.val / 128 * 1 + 0) * 128 + b.val % 128 = b.val
    omega)).trans ?_
  have hA := (Pipeline.withArrays_arr spec0 launch0.win.arr_inj c (V0 m c) (fun w => (dats m 0 c).arrAt w cfg0.N) 7).trans (final m c)
  refine (congrFun hA _).trans ?_
  unfold tiles
  refine congrArg (energy m c) (Fin.ext ?_)
  show b.val / 128 * 128 + b.val % 128 = b.val
  omega

/-- The frame run's post read at the result and at the ten arguments. -/
theorem post_of (r : PUnit × MemSt nD τ sig (Elt Ideal))
    (h : Pipeline.FramePost cfgs (dats m) 0 (Pipeline.afterTail₀ cfgs (dats m) 0 (V0 m) [hostOps1]) r) (c : Dev nD) :
    r.2.mem ((c.tc : Thread nD τ).loc main_v21) = (fun i => energy m c (i 0))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9) :=
  ⟨((h c).2 main_v21 (Pipeline.mem_restRefs_of main_v21 (by decide) (by decide))).trans (result_eq m c),
    ((h c).1 0).trans (((dats m 0 c).arrAt_in 0 rfl _).trans ((A_eq m c 0).trans (V_main_arg0 m c))),
    ((h c).2 main_arg1 (Pipeline.mem_restRefs_of main_arg1 (by decide) (by decide))).trans (W_main_arg1 m (dats m) c),
    ((h c).1 2).trans (((dats m 0 c).arrAt_in 2 rfl _).trans ((A_eq m c 2).trans (V_main_arg2 m c))),
    ((h c).1 3).trans (((dats m 0 c).arrAt_in 3 rfl _).trans ((A_eq m c 3).trans (V_main_arg3 m c))),
    ((h c).2 main_arg4 (Pipeline.mem_restRefs_of main_arg4 (by decide) (by decide))).trans (W_main_arg4 m (dats m) c),
    ((h c).2 main_arg5 (Pipeline.mem_restRefs_of main_arg5 (by decide) (by decide))).trans (W_main_arg5 m (dats m) c),
    ((h c).2 main_arg6 (Pipeline.mem_restRefs_of main_arg6 (by decide) (by decide))).trans (W_main_arg6 m (dats m) c),
    ((h c).2 main_arg7 (Pipeline.mem_restRefs_of main_arg7 (by decide) (by decide))).trans (W_main_arg7 m (dats m) c),
    ((h c).2 main_arg8 (Pipeline.mem_restRefs_of main_arg8 (by decide) (by decide))).trans (W_main_arg8 m (dats m) c),
    ((h c).2 main_arg9 (Pipeline.mem_restRefs_of main_arg9 (by decide) (by decide))).trans (W_main_arg9 m (dats m) c)⟩

/-- THE RUN: every weakly fair execution of the kernel's program terminates with molecule b's energy at entry (b, 0) of
    the result and the arguments unchanged. -/
theorem run : θ_run defs (onTc (τ := τ) (main (F := Ideal))) ⟨m, fun _ => 0, ρ⟩ (fun r => ∀ c : Dev nD,
      r.2.mem ((c.tc : Thread nD τ).loc main_v21) = (fun i => energy m c (i 0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => post_of m r h c) (run_main m ρ)

end Cert.KernelIdeal.Result

end
-- ==== Proof.RefValue.lean ====
/-
  The reference's result, read index by index: molecule b's entry is the sum over its atoms of the reference's
  bracketing of the atom's masked energy.
-/
import proofs.«404391_j20134806684373_3_alg».proof.Proof.Gen.ReferenceIdeal.Read
import proofs.«404391_j20134806684373_3_alg».proof.Proof.Bridge

noncomputable section

namespace Cert.ReferenceIdeal.RefValue

open Idealize.ShloMosaic Idealize.ShloMosaic.ValueIdx Cert.ReferenceIdeal Cert.ReferenceIdeal.Read AtomEnergy

variable (x0 : FVec Ideal S2048x96x128 .f32) (x1 : IVec S2048x96 32) (x2 : FVec Ideal S2048x96 .f32)
  (x3 : FVec Ideal S128x64 .f32) (x4 : FVec Ideal S64 .f32) (x5 : FVec Ideal S64x1 .f32) (x6 : FVec Ideal S1 .f32)
  (x7 : FVec Ideal S100x1 .f32) (x8 x9 : FVec Ideal S1 .f32)

/-- The pre-activation of hidden unit k of atom a of molecule b. -/
theorem preact_at (b : Fin 2048) (a : Fin 96) (k : Fin 64) :
    val_main_v3 (F := Ideal) x0 x3 x4 (ix3 b a k) = ∑ i : Fin 128, x0 (ix3 b a i) * x3 (ix2 i k) + x4 (ix1 k) := by
  rw [val_main_v3_apply, val_main_v0_apply, val_main_v2_apply, val_main_v1_apply]
  have e1 : ∀ i : Fin 128, lidx_main_v0 (ix3 b a k) i = ix3 b a i := fun i => funext fun c => Fin.ext (by
    match c with
    | ⟨0, _⟩ => rfl
    | ⟨1, _⟩ => rfl
    | ⟨2, _⟩ => rfl)
  have e2 : ∀ i : Fin 128, ridx_main_v0 (ix3 b a k) i = ix2 i k := fun i => funext fun c => Fin.ext (by
    match c with
    | ⟨0, _⟩ => rfl
    | ⟨1, _⟩ => rfl)
  have e3 : idx_main_v1 (idx_main_v2 (ix3 b a k)) = ix1 k := funext fun c => Fin.ext (by
    match c with
    | ⟨0, _⟩ => rfl)
  simp only [e1, e2, e3]
  rfl

/-- The reference's softplus on one value: its guard against an undefined difference never fires on the extended
    reals (no value differs from itself), and x − 0 = x. -/
theorem softplus_form (x y : EReal) :
    Scalar.select
        (FloatOps.cmpf (F := Ideal) (φ := .f32) .une (FloatOps.subf (F := Ideal) (φ := .f32) x (FloatOps.ofBits .f32 0x00000000#32))
          (FloatOps.subf (F := Ideal) (φ := .f32) x (FloatOps.ofBits .f32 0x00000000#32)))
        y
        (FloatOps.addf (F := Ideal) (φ := .f32) (FloatOps.maximumf (F := Ideal) (φ := .f32) x (FloatOps.ofBits .f32 0x00000000#32))
          (FloatOps.hostUnary (F := Ideal) (φ := .f32) .log1p (FloatOps.hostUnary (F := Ideal) (φ := .f32) .exp
            (FloatOps.hostNegf (F := Ideal) (φ := .f32) (FloatOps.hostAbsf (F := Ideal) (φ := .f32)
              (FloatOps.subf (F := Ideal) (φ := .f32) x (FloatOps.ofBits .f32 0x00000000#32)))))))
      = softplus x := by
  have hc : FloatOps.cmpf (F := Ideal) (φ := .f32) .une (FloatOps.subf (F := Ideal) (φ := .f32) x (FloatOps.ofBits .f32 0x00000000#32))
      (FloatOps.subf (F := Ideal) (φ := .f32) x (FloatOps.ofBits .f32 0x00000000#32)) = 0#1 := by
    rw [Ideal.cmpf_def]; simp [Ideal.cmp]
  rw [hc, select_zero]
  show max x (Ideal.ofBits .f32 0x00000000#32)
      + Ideal.log1p (Ideal.exp (-(max (x - Ideal.ofBits .f32 0x00000000#32) (-(x - Ideal.ofBits .f32 0x00000000#32))))) = softplus x
  rw [Ideal.ofBits_zero_f32, sub_zero]
  rfl

/-- The reference's softplus stage is the softplus of its pre-activation. -/
theorem softplus_at (j : S2048x96x64.Idx) :
    val_main_v4 (F := Ideal) x0 x3 x4 j = softplus (val_main_v3 (F := Ideal) x0 x3 x4 j) := by
  rw [val_main_v4_apply, val_main_call0_v4_apply, val_main_call0_v11_apply, val_main_call0_v1_apply,
    val_main_call0_v10_apply, val_main_call0_v9_apply, val_main_call0_v8_apply, val_main_call0_v7_apply,
    val_main_call0_v3_apply, val_main_call0_v0_apply, val_main_call0_v2_apply, val_main_call0_cst_apply]
  exact softplus_form _ _

/-- The hidden sum of atom a of molecule b, as the reference's second contraction computes it. -/
theorem hidden_at (b : Fin 2048) (a : Fin 96) :
    val_main_v7 (F := Ideal) x0 x3 x4 x5 (ix3 b a 0) = hiddenAt x0 x3 x4 x5 b a := by
  rw [val_main_v7_apply]
  unfold hiddenAt AtomEnergy.hidden
  refine Finset.sum_congr rfl fun k _ => ?_
  have e1 : lidx_main_v7 (ix3 b a 0) k = ix3 b a k := funext fun c => Fin.ext (by
    match c with
    | ⟨0, _⟩ => rfl
    | ⟨1, _⟩ => rfl
    | ⟨2, _⟩ => rfl)
  have e2 : ridx_main_v7 (ix3 b a 0) k = ix2 k 0 := funext fun c => Fin.ext (by
    match c with
    | ⟨0, _⟩ => rfl
    | ⟨1, _⟩ => rfl)
  rw [e1, e2, val_main_v6_apply, softplus_at, preact_at, val_main_v5_apply, val_main_cst_apply]
  rfl

/-- The atom's reference energy: the table's row chosen by the atomic number after the wrap-around rule and the clamp. -/
theorem row_at (b : Fin 2048) (a : Fin 96) :
    val_main_v23 (F := Ideal) x1 x7 (ix3 b a 0) = x7 (rowOf (wrapRow (x1 (ix2 b a)))) := by
  have hz : val_main_v22 (F := Ideal) x1 (ix3 b a 0) = wrapRow (x1 (ix2 b a)) := by
    rw [val_main_v22_apply, val_main_v21_apply, val_main_v18_apply, val_main_v20_apply, val_main_v17_apply,
      val_main_v19_apply, val_main_c_apply, val_main_c_0_apply]
    have e : idx_main_v22 (ix3 b a 0) = ix2 b a := funext fun c => Fin.ext (by
      match c with
      | ⟨0, _⟩ => rfl
      | ⟨1, _⟩ => rfl)
    rw [e]
    rfl
  unfold val_main_v23
  refine (gather_row_apply _ x7 _ b a).trans ?_
  show x7 (rowOf (val_main_v22 (F := Ideal) x1 (ix3 b a 0))) = _
  rw [hz]

/-- One atom's masked energy in the reference's bracketing. -/
theorem atom_at (b : Fin 2048) (a : Fin 96) :
    val_main_v26 (F := Ideal) x0 x1 x2 x3 x4 x5 x6 x7 x8 x9 (ix3 b a 0)
      = atomRef (hiddenAt x0 x3 x4 x5 b a) (x6 (ix1 0)) (x9 (ix1 0)) (x8 (ix1 0)) (x7 (rowOf (wrapRow (x1 (ix2 b a))))) (x2 (ix2 b a)) := by
  rw [val_main_v26_apply, val_main_v24_apply, val_main_v16_apply, val_main_v13_apply, val_main_v10_apply, hidden_at,
    val_main_v9_apply, val_main_v8_apply, val_main_v12_apply, val_main_v11_apply, val_main_v15_apply, val_main_v14_apply,
    val_main_v25_apply, row_at]
  have e6 : idx_main_v8 (idx_main_v9 (ix3 b a 0)) = ix1 0 := funext fun c => Fin.ext (by
    match c with
    | ⟨0, _⟩ => rfl)
  have e9 : idx_main_v11 (idx_main_v12 (ix3 b a 0)) = ix1 0 := funext fun c => Fin.ext (by
    match c with
    | ⟨0, _⟩ => rfl)
  have e8 : idx_main_v14 (idx_main_v15 (ix3 b a 0)) = ix1 0 := funext fun c => Fin.ext (by
    match c with
    | ⟨0, _⟩ => rfl)
  have e2 : idx_main_v25 (ix3 b a 0) = ix2 b a := funext fun c => Fin.ext (by
    match c with
    | ⟨0, _⟩ => rfl
    | ⟨1, _⟩ => rfl)
  rw [e6, e9, e8, e2]
  rfl

/-- Molecule b's entry of the reference's result. -/
theorem result_at (b : Fin 2048) :
    val_main_v27 (F := Ideal) x0 x1 x2 x3 x4 x5 x6 x7 x8 x9 (ix2 b 0) = energyRef x0 x1 x2 x3 x4 x5 x6 x7 x8 x9 b := by
  rw [val_main_v27_apply, val_main_cst_1_apply]
  unfold energyRef
  show Ideal.ofBits .f32 0x00000000#32 + _ = _
  rw [Ideal.ofBits_zero_f32, zero_add]
  refine Finset.sum_congr rfl fun (a : Fin 96) _ => ?_
  have e : idx_main_v27 (ix2 b 0) a = ix3 b a 0 := funext fun c => Fin.ext (by
    match c with
    | ⟨0, _⟩ => rfl
    | ⟨1, _⟩ => rfl
    | ⟨2, _⟩ => rfl)
  rw [e, atom_at]

/-- THE REFERENCE'S RESULT, as one function of its arguments: entry (b, 0) is molecule b's energy. -/
theorem result_eq :
    val_main_v27 (F := Ideal) x0 x1 x2 x3 x4 x5 x6 x7 x8 x9 = fun i => energyRef x0 x1 x2 x3 x4 x5 x6 x7 x8 x9 (i 0) := by
  funext i
  obtain ⟨b, q, rfl⟩ : ∃ (b : Fin 2048) (q : Fin 1), i = ix2 b q := ⟨i 0, i 1, eq_ix2 i⟩
  obtain rfl : q = 0 := Subsingleton.elim _ _
  exact result_at x0 x1 x2 x3 x4 x5 x6 x7 x8 x9 b

end Cert.ReferenceIdeal.RefValue

end
-- ==== Proof.lean ====
/-
  The claim: a Pallas kernel for per-atom energies summed over each molecule agrees with its jnp reference over the
  extended reals.

  Each of 2048 molecules has 96 atoms; an atom carries a 128-vector, passed through one hidden layer of 64 units with the
  shifted softplus, read out linearly, scaled by s, shifted by m, offset by the atom's reference energy (a row of a
  100-row table chosen by the atomic number) and multiplied by the atom's mask; a molecule's result is the sum over its
  atoms. The kernel tiles the molecules in 16 blocks of 128, computes the hidden layer on the matrix unit after flattening
  (molecule, atom) pairs into rows, and folds b2·s + m and the table row into one additive term prepared on the host;
  the reference adds b2, scales, shifts and adds the table row in that order.

  * The three frames: the kernel's two are the generated frame certificates; the reference's is its generated run with
    the result dropped.
  * preserves: the idealization rewrote nothing.
  * algebraic: the kernel's run leaves molecule b's energy in the kernel's bracketing (Proof/KernelValue.lean, over
    Proof/KernelBody.lean), the reference's run leaves it in the reference's bracketing (Proof/RefValue.lean); under the
    precondition — every float input a real number, every atomic number non-negative (Proof/PreFacts.lean) — the two
    bracketings are one real expression and both programs read the same table row (Proof/Bridge.lean over
    Proof/Energy.lean and Proof/TableRow.lean). The non-negativity is needed: at atomic number −1 the reference reads the
    table's last row and the kernel, which clips first, its first.
-/
import proofs.«404391_j20134806684373_3_alg».proof.Defs
import proofs.«404391_j20134806684373_3_alg».proof.Proof.Gen.Kernel
import proofs.«404391_j20134806684373_3_alg».proof.Proof.Gen.Kernel.Skeleton
import proofs.«404391_j20134806684373_3_alg».proof.Proof.Gen.Kernel.Launch
import proofs.«404391_j20134806684373_3_alg».proof.Proof.Gen.Kernel.Points
import proofs.«404391_j20134806684373_3_alg».proof.Proof.Gen.Kernel.Frame
import proofs.«404391_j20134806684373_3_alg».proof.Proof.Gen.KernelIdeal
import proofs.«404391_j20134806684373_3_alg».proof.Proof.Gen.KernelIdeal.Skeleton
import proofs.«404391_j20134806684373_3_alg».proof.Proof.Gen.KernelIdeal.Launch
import proofs.«404391_j20134806684373_3_alg».proof.Proof.Gen.KernelIdeal.Points
import proofs.«404391_j20134806684373_3_alg».proof.Proof.Gen.KernelIdeal.Frame
import proofs.«404391_j20134806684373_3_alg».proof.Proof.Gen.ReferenceIdeal
import proofs.«404391_j20134806684373_3_alg».proof.Proof.Gen.ReferenceIdeal.Run
import proofs.«404391_j20134806684373_3_alg».proof.Proof.Gen.ReferenceIdeal.Read
import proofs.«404391_j20134806684373_3_alg».proof.Proof.Gen.Pre_finite_inputs
import proofs.«404391_j20134806684373_3_alg».proof.Proof.PreFacts
import proofs.«404391_j20134806684373_3_alg».proof.Proof.KernelValue
import proofs.«404391_j20134806684373_3_alg».proof.Proof.RefValue
import Idealize.ShloMosaic.Adequacy
import Idealize.ShloMosaic.Init

noncomputable section

namespace Cert.Proof

open Idealize.ShloMosaic Idealize.SL.Sem AtomEnergy

/-- The kernel as printed runs and keeps its arguments. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and keeps its arguments: its run, the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- Both programs end with every molecule's energy in their result, and under the precondition the kernel's bracketing
    of it is the reference's. -/
theorem algebraic : Cert.algebraic_KernelIdeal_ReferenceIdeal := by
  intro m ρ m' ρ' hpre hagree
  refine ⟨fun c => (fun i => Cert.KernelIdeal.Result.energy m c (i 0)), Cert.KernelIdeal.Result.run m ρ, ?_⟩
  refine (θ_run Cert.ReferenceIdeal.defs _ _).mono (fun _ h c => ⟨?_, (h c).2⟩)
    (Cert.ReferenceIdeal.Value.run (F := Ideal) m' ρ')
  refine ((h c).1.trans (Cert.ReferenceIdeal.Read.val_main_v27_eq _ _ _ _ _ _ _ _ _ _)).trans ?_
  refine (Cert.ReferenceIdeal.RefValue.result_eq _ _ _ _ _ _ _ _ _ _).trans ?_
  obtain ⟨a0, a1, a2, a3, a4, a5, a6, a7, a8, a9⟩ := hagree c
  rw [a0, a1, a2, a3, a4, a5, a6, a7, a8, a9]
  obtain ⟨h0, -, h3, h4, h5, h6, h7, h8, h9, h1⟩ := Cert.PreFacts.of_pre _ _ _ _ _ _ _ _ _ _ (hpre c)
  funext i
  exact (energyKer_eq_energyRef _ _ _ _ _ _ _ _ _ _ h0 h3 h4 h5 h6 h7 h8 h9 h1 (i 0)).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
